-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S600000x8 : Shape := ⟨2, ![600000, 8]⟩
abbrev S265x128 : Shape := ⟨2, ![265, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S600000x8 : S_.BroadcastsInDim S600000x8 (![] : Fin 0 → Fin S600000x8.rank)
  reducesTo_S600000x8_S_d0_1 : S600000x8.ReducesTo [0, 1] S_
  bcast_S_S265x128 : S_.BroadcastsInDim S265x128 (![] : Fin 0 → Fin S265x128.rank)
  reducesTo_S265x128_S_d0_1 : S265x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S256x128 .f32) (main_arg9 : FVec F S128 .f32) (main_arg10 : FVec F S128x128 .f32) (main_arg11 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_v13 : IVec S_ 1) (main_v16 : IVec S265x128 1) : IVec S_ 1 :=
  let main_c_5 : IVec S_ 1 := constantI S_ 1 1#1
  let main_v17 : IVec S_ 1 := (fun x v => Host.reduce IntOp.andi x v reducesTo_S265x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x3 .f32) (main_arg2 : IVec S2x600000 32) (main_arg3 : FVec F S600000x8 .f32) (main_arg4 : FVec F S265x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S600000x8 .f32 := Host.absf main_arg3
  let main_cst_2 : FVec F S_ .f32 := constant S_ .f32 0x7F800000#32
  let main_v10 : FVec F S600000x8 .f32 := broadcastInDim S600000x8 ![] bcast_S_S600000x8 main_cst_2
  let main_v11 : IVec S600000x8 1 := cmpf .olt main_v9 main_v10
  let main_c_3 : IVec S_ 1 := constantI S_ 1 1#1
  let main_v12 : IVec S_ 1 := (fun x v => Host.reduce IntOp.andi x v reducesTo_S600000x8_S_d0_1 h_S_) main_v11 main_c_3
  let main_v13 : IVec S_ 1 := andi main_v8 main_v12
  let main_v14 : FVec F S265x128 .f32 := Host.absf main_arg4
  let main_cst_4 : FVec F S_ .f32 := constant S_ .f32 0x7F800000#32
  let main_v15 : FVec F S265x128 .f32 := broadcastInDim S265x128 ![] bcast_S_S265x128 main_cst_4
  let main_v16 : IVec S265x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S600000x8 : Shape := ⟨2, ![600000, 8]⟩
abbrev S265x128 : Shape := ⟨2, ![265, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x3 : Shape := ⟨2, ![600000, 3]⟩
abbrev S600000x265 : Shape := ⟨2, ![600000, 265]⟩
abbrev S6000x265 : Shape := ⟨2, ![6000, 265]⟩
abbrev S6000x128 : Shape := ⟨2, ![6000, 128]⟩
abbrev S1x128 : Shape := ⟨2, ![1, 128]⟩
abbrev S50000x256 : Shape := ⟨2, ![50000, 256]⟩
abbrev S5000x256 : Shape := ⟨2, ![5000, 256]⟩
abbrev S5000x128 : Shape := ⟨2, ![5000, 128]⟩

abbrev nBuf : Space → Nat
  | .hbm => 66
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S600000x8, .f32⟩
  | .hbm, ⟨4, _⟩ => ⟨S265x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x3, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x3, .f32⟩
  | .hbm, ⟨52, _⟩ => ⟨S600000x3, .f32⟩
  | .hbm, ⟨53, _⟩ => ⟨S600000x3, .f32⟩
  | .hbm, ⟨54, _⟩ => ⟨S_, .f32⟩
  | .hbm, ⟨55, _⟩ => ⟨S600000, .f32⟩
  | .hbm, ⟨56, _⟩ => ⟨S600000x1, .f32⟩
  | .hbm, ⟨57, _⟩ => ⟨S600000x265, .f32⟩
  | .hbm, ⟨58, _⟩ => ⟨S600000x128, .bf16⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S50000x256, .f32⟩
  | .hbm, ⟨65, _⟩ => ⟨S50000x128, .f32⟩
  | .local _ .vmem, ⟨0, _⟩ => ⟨S6000x265, .f32⟩
  | .local _ .vmem, ⟨1, _⟩ => ⟨S6000x265, .f32⟩
  | .local _ .vmem, ⟨2, _⟩ => ⟨S265x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S6000x128, .bf16⟩
  | .local _ .vmem, ⟨7, _⟩ => ⟨S6000x128, .bf16⟩
  | .local _ .vmem, ⟨8, _⟩ => ⟨S5000x256, .f32⟩
  | .local _ .vmem, ⟨9, _⟩ => ⟨S5000x256, .f32⟩
  | .local _ .vmem, ⟨10, _⟩ => ⟨S256x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x265 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S265x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x8_S600000x265_d1 : Shape.Concatenates [S600000x128, S600000x128, S600000x1, S600000x8] S600000x265 1
  inb_S6000x265_S6000x265_0_0 : ∀ a, (![0, 0] : Fin 2 → Nat) a + S6000x265.size a ≤ S6000x265.size a
  h_S6000x265 : 0 < S6000x265.numel
  shapeCasts_S6000x265_S6000x265 : S6000x265.ShapeCasts S6000x265
  bitsLt_bf16_f32 : FTy.bits .bf16 < FTy.bits .f32
  inb_S265x128_S265x128_0_0 : ∀ a, (![0, 0] : Fin 2 → Nat) a + S265x128.size a ≤ S265x128.size a
  h_S265x128 : 0 < S265x128.numel
  inb_S128_S128_0 : ∀ a, (![0] : Fin 1 → Nat) a + S128.size a ≤ S128.size a
  h_S128 : 0 < S128.numel
  shapeCasts_S128_S1x128 : S128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  inb_S6000x128_S6000x128_0_0 : ∀ a, (![0, 0] : Fin 2 → Nat) a + S6000x128.size a ≤ S6000x128.size a
  h_S6000x128 : 0 < S6000x128.numel
  packedbf16_S6000x128_S6000x128_0_0 : (Rect.unit (s := S6000x128) ![0, 0] S6000x128.size inb_S6000x128_S6000x128_0_0).PackedRows (EltTy.packing .bf16)
  bcast_S_S50000x128 : S_.BroadcastsInDim S50000x128 (![] : Fin 0 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x128_S600000x1_S600000x128_1_0_n_n_0_1_1128_wf : GatherDims.WF S50000x128 S600000x1 S600000x128 [1] [0] [] [0] [] 1 ![1, 128]
  gather_S50000x3_S600000x1_S600000x3_1_0_n_n_0_1_13_wf : GatherDims.WF S50000x3 S600000x1 S600000x3 [1] [0] [] [0] [] 1 ![1, 3]
  dot_S6000x265_S265x128_S6000x128_1_0_0_1_n_n_wf : DotDims.WF S6000x265 S265x128 S6000x128 [1] [0] [0] [1] [] []
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x265.size a ≤ S600000x265.size a
  hwx0_0 : ∀ i : grid0.Coords, EltTy.bits .f32 = 32 ∨ (Rect.block (s := S600000x265) S6000x265.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S265x128.size a ≤ S265x128.size a
  hwx0_1 : ∀ i : grid0.Coords, EltTy.bits .f32 = 32 ∨ (Rect.block (s := S265x128) S265x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x128.size a ≤ S600000x128.size a
  hwx0_5 : ∀ i : grid0.Coords, EltTy.bits .bf16 = 32 ∨ (Rect.block (s := S600000x128) S6000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def dot_S6000x265_S265x128_S6000x128_1_0_0_1_n_n : DotDims S6000x265 S265x128 S6000x128 where
  lhsContracting := [1]
  rhsContracting := [0]
  lhsNonContracting := [0]
  rhsNonContracting := [1]
  lhsBatch := []
  rhsBatch := []
  wf := dot_S6000x265_S265x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v36) S6000x265.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S265x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S6000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S600000x8 : Shape := ⟨2, ![600000, 8]⟩
abbrev S265x128 : Shape := ⟨2, ![265, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x265 : Shape := ⟨2, ![600000, 265]⟩
abbrev S1x128 : Shape := ⟨2, ![1, 128]⟩
abbrev S50000x256 : Shape := ⟨2, ![50000, 256]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S600000x8, .f32⟩
  | .hbm, ⟨4, _⟩ => ⟨S265x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x3, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x3, .f32⟩
  | .hbm, ⟨34, _⟩ => ⟨S600000x3, .f32⟩
  | .hbm, ⟨35, _⟩ => ⟨S600000x3, .f32⟩
  | .hbm, ⟨36, _⟩ => ⟨S_, .f32⟩
  | .hbm, ⟨37, _⟩ => ⟨S600000, .f32⟩
  | .hbm, ⟨38, _⟩ => ⟨S600000x1, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x265, .f32⟩
  | .hbm, ⟨58, _⟩ => ⟨S600000x128, .f32⟩
  | .hbm, ⟨59, _⟩ => ⟨S1x128, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S600000x128, .f32⟩
  | .hbm, ⟨64, _⟩ => ⟨S600000x128, .f32⟩
  | .hbm, ⟨65, _⟩ => ⟨S600000x128, .f32⟩
  | .hbm, ⟨66, _⟩ => ⟨S1x128, .f32⟩
  | .hbm, ⟨67, _⟩ => ⟨S600000x128, .f32⟩
  | .hbm, ⟨68, _⟩ => ⟨S600000x128, .f32⟩
  | .hbm, ⟨69, _⟩ => ⟨S_, .f32⟩
  | .hbm, ⟨70, _⟩ => ⟨S600000x128, .f32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S50000x256, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_cst : Ref sig .tc := ⟨.hbm, 62, rfl⟩
abbrev main_call0_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call1_cst : Ref sig .tc := ⟨.hbm, 69, rfl⟩
abbrev main_call1_v0 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x8_S600000x265_d1 : Shape.Concatenates [S600000x128, S600000x128, S600000x1, S600000x8] S600000x265 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x265_S265x128_S600000x128_1_0_0_1_n_n_wf : DotDims.WF S600000x265 S265x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x265_S265x128_S600000x128_1_0_0_1_n_n : DotDims S600000x265 S265x128 S600000x128 where
  lhsContracting := [1]
  rhsContracting := [0]
  lhsNonContracting := [0]
  rhsNonContracting := [1]
  lhsBatch := []
  rhsBatch := []
  wf := dot_S600000x265_S265x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BitsRegion0.lean ====
import proofs.«112178_j2774548873773_1_alg».proof.Proof.Gen.Kernel.Launch
import proofs.«112178_j2774548873773_1_alg».proof.Proof.Gen.Kernel.Skeleton
import proofs.«112178_j2774548873773_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The edge network's region (the first of the program's two kernel regions), at any float instance and at any
  contents `V` of the core's buffers when the region is entered.

  Each of the 100 grid points takes a block of 6000 rows of the edge-input matrix (window 0) beside the two weight
  matrices and the two bias vectors, whole (windows 1 to 4, the same block at every point), and writes a block of
  6000 rows of the edge features (window 5).  The body loads the five inputs whole, computes one value from them and
  stores it over the whole output block; so after the body the output's staging buffer holds that value of the input
  blocks, whatever it held before, and the inputs' staging buffers are as they were.  From this the pipeline's proof
  data and the body obligation at every point follow.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the last fetch, and the body leaves the buffer as it found it. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev r0_0 : Rect S6000x265 := Rect.unit (s := S6000x265) ![0, 0] S6000x265.size inb_S6000x265_S6000x265_0_0
abbrev r0_1 : Rect S265x128 := Rect.unit (s := S265x128) ![0, 0] S265x128.size inb_S265x128_S265x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_5 : Rect S6000x128 := Rect.unit (s := S6000x128) ![0, 0] S6000x128.size inb_S6000x128_S6000x128_0_0

/-! ## What the body leaves in the output window's buffer -/

/-- The output's staging buffer after the body, from the input windows' blocks: its one store, over the whole
    buffer, of the body's value of the five loaded inputs. -/
def out0_5 (x0 : Vec F S6000x265 .f32) (x1 : Vec F S265x128 .f32) (x2 : Vec F S128 .f32) (x3 : Vec F S128x128 .f32) (x4 : Vec F S128 .f32) : Vec F S6000x128 .bf16 :=
  View.canon [⟨r0_5, k0_pay1 (View.ld x0 r0_0) (View.ld x1 r0_1) (View.ld x2 r0_2) (View.ld x3 r0_3) (View.ld x4 r0_2)⟩]

/-- The store covers the buffer. -/
theorem cover0_5 (p0 : Vec F S6000x128 .bf16) (y : S6000x128.Idx) :
    ∃ pc ∈ ([⟨r0_5, p0⟩] : List (View.Piece (Elt F) S6000x128 .bf16)), y ∈ pc.1.set :=
  View.cover_of_tiled [⟨r0_5, p0⟩] S6000x128.size (by rfl) y

/-! ## The body's triple -/

set_option maxHeartbeats 1000000 in
/-- The body on whole staging memrefs, the inputs' at contents `xW` and the output's at anything, runs to the
    continuation holding the inputs' as they were and the output's at `out0_5` of the inputs'. -/
theorem sound_kernel0 (c : Dev nD) (E : Set ℕ) (i : grid0.Coords)
    (arg1 : Memref sig .tc .vmem S6000x265 .f32) (harg1 : arg1.IsWhole) (arg2 : Memref sig .tc .vmem S265x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S6000x128 .bf16) (harg6 : arg6.IsWhole)
    (x0 : Vec F S6000x265 .f32) (x1 : Vec F S265x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region's pipeline on core `c`: the arrays as the region finds them; after the body at point
    `t` each input's buffer at its block and the output's at `out0_5` of the input blocks; the scoped rest and the
    generator register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
import proofs.«112178_j2774548873773_1_alg».proof.Proof.Gen.Kernel.Launch
import proofs.«112178_j2774548873773_1_alg».proof.Proof.Gen.Kernel.Skeleton
import proofs.«112178_j2774548873773_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The node network's region (the second of the program's two kernel regions), at any float instance and at any
  contents `V` of the core's buffers when the region is entered.

  Each of the 10 grid points takes a block of 5000 rows of the node-input matrix (window 0) beside the two weight
  matrices and the two bias vectors, whole (windows 1 to 4, the same block at every point), and writes a block of
  5000 rows of the result (window 5).  The body loads the five inputs whole, computes one value from them and
  stores it over the whole output block; so after the body the output's staging buffer holds that value of the input
  blocks, whatever it held before, and the inputs' staging buffers are as they were.  From this the pipeline's proof
  data and the body obligation at every point follow.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the last fetch, and the body leaves the buffer as it found it. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S128 := Rect.unit (s := S128) ![0] S128.size inb_S128_S128_0
abbrev r1_3 : Rect S128x128 := Rect.unit (s := S128x128) ![0, 0] S128x128.size inb_S128x128_S128x128_0_0
abbrev r1_5 : Rect S5000x128 := Rect.unit (s := S5000x128) ![0, 0] S5000x128.size inb_S5000x128_S5000x128_0_0

/-! ## What the body leaves in the output window's buffer -/

/-- The output's staging buffer after the body, from the input windows' blocks: its one store, over the whole
    buffer, of the body's value of the five loaded inputs. -/
def out1_5 (x0 : Vec F S5000x256 .f32) (x1 : Vec F S256x128 .f32) (x2 : Vec F S128 .f32) (x3 : Vec F S128x128 .f32) (x4 : Vec F S128 .f32) : Vec F S5000x128 .f32 :=
  View.canon [⟨r1_5, k1_pay1 (View.ld x0 r1_0) (View.ld x1 r1_1) (View.ld x2 r1_2) (View.ld x3 r1_3) (View.ld x4 r1_2)⟩]

/-- The store covers the buffer. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

/-! ## The body's triple -/

set_option maxHeartbeats 1000000 in
/-- The body on whole staging memrefs, the inputs' at contents `xW` and the output's at anything, runs to the
    continuation holding the inputs' as they were and the output's at `out1_5` of the inputs'. -/
theorem sound_kernel1 (c : Dev nD) (E : Set ℕ) (i : grid1.Coords)
    (arg1 : Memref sig .tc .vmem S5000x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .f32) (harg6 : arg6.IsWhole)
    (x0 : Vec F S5000x256 .f32) (x1 : Vec F S256x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__node_mlp_kernel i arg1 harg1 arg2 harg2 arg3 harg3 arg4 harg4 arg5 harg5 arg6 harg6) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them; after the body at point
    `t` each input's buffer at its block and the output's at `out1_5` of the input blocks; the scoped rest and the
    generator register untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
import proofs.«112178_j2774548873773_1_alg».proof.Proof.BitsRegion0
import proofs.«112178_j2774548873773_1_alg».proof.Proof.BitsRegion1
import proofs.«112178_j2774548873773_1_alg».proof.Proof.Gen.Kernel.Regions

/-!
  The program's run, at any float instance: host operations, the edge network's region, host operations, the node
  network's region.

  The core's unscoped buffers are followed from the launch to the return: after the first stretch of host operations
  they hold those operations' results over the launch memory; the first region changes only its output array, to what
  its write-backs leave; the second stretch computes on; the second region changes only the result array.  Each region
  is entered from "every unscoped buffer at the contents before it" and left at the contents after it, its arrays split
  out of the buffers at entry and joined back at exit, its body obligation the one proved for its pipeline.  Every
  weakly fair execution therefore terminates with every unscoped buffer at the last contents; in particular no
  argument is changed, and the result array holds what the second region's write-backs leave.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the boundaries -/

/-- The first region's entry contents, read at the core's references. -/
abbrev B1 : (c : Dev nD) → (b : Ref sig .tc) → Buf (Elt F) ((c : Thread nD τ).loc b) := fun c b => V1 m c b

/-- After the first region: its arrays at what the pipeline leaves (the inputs as entered, the output's write-backs
    folded), every other buffer as entered. -/
def X2 (c : Dev nD) : Valuation τ sig (Elt F) :=
  Pipeline.withArrays spec0 c (V1 m c) fun w => (dat0 (B1 m) c).arrAt w cfg0.N
theorem X2_arr (c : Dev nD) (w : Fin cfg0.W) :
    X2 m c (Proc.devRef .tc (Pipeline.arrRef spec0 w)) = (dat0 (B1 m) c).arrAt w cfg0.N := by
  unfold X2; exact Pipeline.withArrays_arr spec0 launch0.win.arr_inj c _ _ w

/-- What the first region leaves, as the unknowns the generated valuations are written over. -/
def outsA : Outs (F := F) := fun _ r c => X2 m c r

/-- The second region's entry contents, read at the core's references. -/
abbrev E3 : (c : Dev nD) → (b : Ref sig .tc) → Buf (Elt F) ((c : Thread nD τ).loc b) := fun c b => V3 m (outsA m) c b

/-- After the second region: its arrays at what the pipeline leaves, every other buffer as entered. -/
def X4 (c : Dev nD) : Valuation τ sig (Elt F) :=
  Pipeline.withArrays spec1 c (V3 m (outsA m) c) fun w => (dat1 (E3 m) c).arrAt w cfg1.N
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w

/-- What the two regions leave: the first region's output after item 1, the second's after item 3. -/
def outs : Outs (F := F) := fun J r c => match J with
  | 4 => X4 m c r
  | _ => X2 m c r

theorem outs_two (r : Ref sig .tc) (c : Dev nD) : outs m 2 r c = X2 m c r := rfl
theorem outs_four (r : Ref sig .tc) (c : Dev nD) : outs m 4 r c = X4 m c r := rfl
theorem V2_outs (c : Dev nD) : V2 m (outs m) c = V2 m (outsA m) c := rfl
theorem V3_outs (c : Dev nD) : V3 m (outs m) c = V3 m (outsA m) c := rfl

abbrev B2 : (c : Dev nD) → (b : Ref sig .tc) → Buf (Elt F) ((c : Thread nD τ).loc b) := fun c b => V2 m (outs m) c b
abbrev B3 : (c : Dev nD) → (b : Ref sig .tc) → Buf (Elt F) ((c : Thread nD τ).loc b) := fun c b => V3 m (outs m) c b
abbrev B4 : (c : Dev nD) → (b : Ref sig .tc) → Buf (Elt F) ((c : Thread nD τ).loc b) := fun c b => V4 m (outs m) c b

/-- The first region's output array after it is what its write-backs leave. -/
theorem V2_out (c : Dev nD) : V2 m (outs m) c main_v37 = (dat0 (B1 m) c).arrAt 5 cfg0.N := by
  show Function.update (V1 m c) (Proc.devRef .tc main_v37) (outs m 2 main_v37 c) (Proc.devRef .tc main_v37) = _
  rw [Function.update_self, outs_two]
  exact X2_arr m c 5

/-- The second region's output array after it is what its write-backs leave. -/
theorem V4_out (c : Dev nD) : V4 m (outs m) c main_v43 = (dat1 (E3 m) c).arrAt 5 cfg1.N := by
  show Function.update (V3 m (outs m) c) (Proc.devRef .tc main_v43) (outs m 4 main_v43 c) (Proc.devRef .tc main_v43) = _
  rw [Function.update_self, outs_four]
  exact X4_arr m c 5

/-- At the first region's exit each of its arrays holds what the pipeline leaves, -/
theorem hF0 (c : Dev nD) (w : Fin cfg0.W) : (dat0 (B1 m) c).arrAt w cfg0.N = B2 m c (Pipeline.arrRef spec0 w) := by
  match w with
  | ⟨0, _⟩ => exact ((dat0 (B1 m) c).arrAt_in 0 rfl _).trans ((A_eq0 (B1 m) c 0).trans (V2_of m (outs m) c _ (by decide)).symm)
  | ⟨1, _⟩ => exact ((dat0 (B1 m) c).arrAt_in 1 rfl _).trans ((A_eq0 (B1 m) c 1).trans (V2_of m (outs m) c _ (by decide)).symm)
  | ⟨2, _⟩ => exact ((dat0 (B1 m) c).arrAt_in 2 rfl _).trans ((A_eq0 (B1 m) c 2).trans (V2_of m (outs m) c _ (by decide)).symm)
  | ⟨3, _⟩ => exact ((dat0 (B1 m) c).arrAt_in 3 rfl _).trans ((A_eq0 (B1 m) c 3).trans (V2_of m (outs m) c _ (by decide)).symm)
  | ⟨4, _⟩ => exact ((dat0 (B1 m) c).arrAt_in 4 rfl _).trans ((A_eq0 (B1 m) c 4).trans (V2_of m (outs m) c _ (by decide)).symm)
  | ⟨5, _⟩ => exact (V2_out m c).symm
/-- and every other buffer what it held at entry. -/
theorem hrest0 (c : Dev nD) : ∀ b, b ∉ Finset.univ.image (Pipeline.arrRef spec0) → B2 m c b = B1 m c b :=
  fun b hb => V2_of m (outs m) c b fun h => hb (by
    rw [List.mem_singleton] at h; subst h
    exact Finset.mem_image.mpr ⟨5, Finset.mem_univ _, rfl⟩)

/-- At the second region's exit each of its arrays holds what the pipeline leaves, -/
theorem hF1 (c : Dev nD) (w : Fin cfg1.W) : (dat1 (E3 m) c).arrAt w cfg1.N = B4 m c (Pipeline.arrRef spec1 w) := by
  match w with
  | ⟨0, _⟩ => exact ((dat1 (E3 m) c).arrAt_in 0 rfl _).trans ((A_eq1 (E3 m) c 0).trans (V4_of m (outs m) c _ (by decide)).symm)
  | ⟨1, _⟩ => exact ((dat1 (E3 m) c).arrAt_in 1 rfl _).trans ((A_eq1 (E3 m) c 1).trans (V4_of m (outs m) c _ (by decide)).symm)
  | ⟨2, _⟩ => exact ((dat1 (E3 m) c).arrAt_in 2 rfl _).trans ((A_eq1 (E3 m) c 2).trans (V4_of m (outs m) c _ (by decide)).symm)
  | ⟨3, _⟩ => exact ((dat1 (E3 m) c).arrAt_in 3 rfl _).trans ((A_eq1 (E3 m) c 3).trans (V4_of m (outs m) c _ (by decide)).symm)
  | ⟨4, _⟩ => exact ((dat1 (E3 m) c).arrAt_in 4 rfl _).trans ((A_eq1 (E3 m) c 4).trans (V4_of m (outs m) c _ (by decide)).symm)
  | ⟨5, _⟩ => exact (V4_out m c).symm
/-- and every other buffer what it held at entry. -/
theorem hrest1 (c : Dev nD) : ∀ b, b ∉ Finset.univ.image (Pipeline.arrRef spec1) → B4 m c b = B3 m c b :=
  fun b hb => V4_of m (outs m) c b fun h => hb (by
    rw [List.mem_singleton] at h; subst h
    exact Finset.mem_image.mpr ⟨5, Finset.mem_univ _, rfl⟩)

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (B1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last contents, the generator register at
    some state. -/
abbrev Tₙ (c : Dev nD) : sProp 𝕄 := iprop(StableHlo.held (c : Thread nD τ) (Pipeline.ucRefs τ sig) (V4 m (outs m) c) ∗ ∃ r, prngReg c r)

/-! ## The regions as segments -/

set_option backward.isDefEq.respectTransparency.types false in
/-- The first region over the thread state: entered from every unscoped buffer at the contents after the first host
    stretch, left at those contents with its output array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the second host
    stretch, left at those contents with the result array at what its write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The two host stretches as segments over the unscoped references, `R` riding along. -/
abbrev hs0 : Pipeline.HostSeg (Ix := Unit) (Name := ℕ) (U := Pipeline.UD sig nD τ) (Lvl := ℕ) (pcfgs (F := F)) defs₀ 𝒱₀ L lv :=
  seg0 m 𝒱₀ L lv (fun _ => R)
abbrev hs2 : Pipeline.HostSeg (Ix := Unit) (Name := ℕ) (U := Pipeline.UD sig nD τ) (Lvl := ℕ) (pcfgs (F := F)) defs₀ 𝒱₀ L lv :=
  seg2 m (outs m) 𝒱₀ L lv (fun _ => R)

/-- @main's four segments in order. -/
abbrev segs : List (Pipeline.Seg (pcfgs (F := F)) adm (pdats m) () defs₀ 𝒱₀ L lv) :=
  [ .host (hs0 m), .region (reg0 m), .host (hs2 m), .region (reg1 m) ]

theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V4 m (outs m) c) s')
      isplitl [Hh] <;> iassumption)
    (hQ := fun s h c => h c)

/-- The frame: no argument array is changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c)⟩) (run_all m ρ)

/-- The run with the result array named: it ends at what the second region's write-backs leave, and no argument array
    is changed. -/
theorem run_result : θ_run defs (onTc (τ := τ) (main (F := F))) ⟨m, fun _ => 0, ρ⟩ (fun r => ∀ c : Dev nD,
      r.2.mem ((c.tc : Thread nD τ).loc main_v43) = (dat1 (E3 m) c).arrAt 5 cfg1.N) :=
  (θ_run defs _ _).mono (fun _ h c => (h c _ (mem_uc main_v43 (by decide))).trans (V4_out m c)) (run_all m ρ)

end Cert.Kernel.Hand

end
-- ==== Proof.IdealRegion0.lean ====
import proofs.«112178_j2774548873773_1_alg».proof.Proof.Gen.KernelIdeal.Launch
import proofs.«112178_j2774548873773_1_alg».proof.Proof.Gen.KernelIdeal.Skeleton
import proofs.«112178_j2774548873773_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The edge network's region (the first of the program's two kernel regions), at any float instance and at any
  contents `V` of the core's buffers when the region is entered.

  Each of the 100 grid points takes a block of 6000 rows of the edge-input matrix (window 0) beside the two weight
  matrices and the two bias vectors, whole (windows 1 to 4, the same block at every point), and writes a block of
  6000 rows of the edge features (window 5).  The body loads the five inputs whole, computes one value from them and
  stores it over the whole output block; so after the body the output's staging buffer holds that value of the input
  blocks, whatever it held before, and the inputs' staging buffers are as they were.  From this the pipeline's proof
  data and the body obligation at every point follow.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the last fetch, and the body leaves the buffer as it found it. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev r0_0 : Rect S6000x265 := Rect.unit (s := S6000x265) ![0, 0] S6000x265.size inb_S6000x265_S6000x265_0_0
abbrev r0_1 : Rect S265x128 := Rect.unit (s := S265x128) ![0, 0] S265x128.size inb_S265x128_S265x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_5 : Rect S6000x128 := Rect.unit (s := S6000x128) ![0, 0] S6000x128.size inb_S6000x128_S6000x128_0_0

/-! ## What the body leaves in the output window's buffer -/

/-- The output's staging buffer after the body, from the input windows' blocks: its one store, over the whole
    buffer, of the body's value of the five loaded inputs. -/
def out0_5 (x0 : Vec F S6000x265 .f32) (x1 : Vec F S265x128 .f32) (x2 : Vec F S128 .f32) (x3 : Vec F S128x128 .f32) (x4 : Vec F S128 .f32) : Vec F S6000x128 .bf16 :=
  View.canon [⟨r0_5, k0_pay1 (View.ld x0 r0_0) (View.ld x1 r0_1) (View.ld x2 r0_2) (View.ld x3 r0_3) (View.ld x4 r0_2)⟩]

/-- The store covers the buffer. -/
theorem cover0_5 (p0 : Vec F S6000x128 .bf16) (y : S6000x128.Idx) :
    ∃ pc ∈ ([⟨r0_5, p0⟩] : List (View.Piece (Elt F) S6000x128 .bf16)), y ∈ pc.1.set :=
  View.cover_of_tiled [⟨r0_5, p0⟩] S6000x128.size (by rfl) y

/-! ## The body's triple -/

set_option maxHeartbeats 1000000 in
/-- The body on whole staging memrefs, the inputs' at contents `xW` and the output's at anything, runs to the
    continuation holding the inputs' as they were and the output's at `out0_5` of the inputs'. -/
theorem sound_kernel0 (c : Dev nD) (E : Set ℕ) (i : grid0.Coords)
    (arg1 : Memref sig .tc .vmem S6000x265 .f32) (harg1 : arg1.IsWhole) (arg2 : Memref sig .tc .vmem S265x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S6000x128 .bf16) (harg6 : arg6.IsWhole)
    (x0 : Vec F S6000x265 .f32) (x1 : Vec F S265x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region's pipeline on core `c`: the arrays as the region finds them; after the body at point
    `t` each input's buffer at its block and the output's at `out0_5` of the input blocks; the scoped rest and the
    generator register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
import proofs.«112178_j2774548873773_1_alg».proof.Proof.Gen.KernelIdeal.Launch
import proofs.«112178_j2774548873773_1_alg».proof.Proof.Gen.KernelIdeal.Skeleton
import proofs.«112178_j2774548873773_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The node network's region (the second of the program's two kernel regions), at any float instance and at any
  contents `V` of the core's buffers when the region is entered.

  Each of the 10 grid points takes a block of 5000 rows of the node-input matrix (window 0) beside the two weight
  matrices and the two bias vectors, whole (windows 1 to 4, the same block at every point), and writes a block of
  5000 rows of the result (window 5).  The body loads the five inputs whole, computes one value from them and
  stores it over the whole output block; so after the body the output's staging buffer holds that value of the input
  blocks, whatever it held before, and the inputs' staging buffers are as they were.  From this the pipeline's proof
  data and the body obligation at every point follow.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the last fetch, and the body leaves the buffer as it found it. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_0 : Rect S5000x256 := Rect.unit (s := S5000x256) ![0, 0] S5000x256.size inb_S5000x256_S5000x256_0_0
abbrev r1_1 : Rect S256x128 := Rect.unit (s := S256x128) ![0, 0] S256x128.size inb_S256x128_S256x128_0_0
abbrev r1_2 : Rect S128 := Rect.unit (s := S128) ![0] S128.size inb_S128_S128_0
abbrev r1_3 : Rect S128x128 := Rect.unit (s := S128x128) ![0, 0] S128x128.size inb_S128x128_S128x128_0_0
abbrev r1_5 : Rect S5000x128 := Rect.unit (s := S5000x128) ![0, 0] S5000x128.size inb_S5000x128_S5000x128_0_0

/-! ## What the body leaves in the output window's buffer -/

/-- The output's staging buffer after the body, from the input windows' blocks: its one store, over the whole
    buffer, of the body's value of the five loaded inputs. -/
def out1_5 (x0 : Vec F S5000x256 .f32) (x1 : Vec F S256x128 .f32) (x2 : Vec F S128 .f32) (x3 : Vec F S128x128 .f32) (x4 : Vec F S128 .f32) : Vec F S5000x128 .f32 :=
  View.canon [⟨r1_5, k1_pay1 (View.ld x0 r1_0) (View.ld x1 r1_1) (View.ld x2 r1_2) (View.ld x3 r1_3) (View.ld x4 r1_2)⟩]

/-- The store covers the buffer. -/
theorem cover1_5 (p0 : Vec F S5000x128 .f32) (y : S5000x128.Idx) :
    ∃ pc ∈ ([⟨r1_5, p0⟩] : List (View.Piece (Elt F) S5000x128 .f32)), y ∈ pc.1.set :=
  View.cover_of_tiled [⟨r1_5, p0⟩] S5000x128.size (by rfl) y

/-! ## The body's triple -/

set_option maxHeartbeats 1000000 in
/-- The body on whole staging memrefs, the inputs' at contents `xW` and the output's at anything, runs to the
    continuation holding the inputs' as they were and the output's at `out1_5` of the inputs'. -/
theorem sound_kernel1 (c : Dev nD) (E : Set ℕ) (i : grid1.Coords)
    (arg1 : Memref sig .tc .vmem S5000x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .f32) (harg6 : arg6.IsWhole)
    (x0 : Vec F S5000x256 .f32) (x1 : Vec F S256x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__node_mlp_kernel i arg1 harg1 arg2 harg2 arg3 harg3 arg4 harg4 arg5 harg5 arg6 harg6) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them; after the body at point
    `t` each input's buffer at its block and the output's at `out1_5` of the input blocks; the scoped rest and the
    generator register untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
import proofs.«112178_j2774548873773_1_alg».proof.Proof.IdealRegion0
import proofs.«112178_j2774548873773_1_alg».proof.Proof.IdealRegion1
import proofs.«112178_j2774548873773_1_alg».proof.Proof.Gen.KernelIdeal.Regions

/-!
  The program's run, at any float instance: host operations, the edge network's region, host operations, the node
  network's region.

  The core's unscoped buffers are followed from the launch to the return: after the first stretch of host operations
  they hold those operations' results over the launch memory; the first region changes only its output array, to what
  its write-backs leave; the second stretch computes on; the second region changes only the result array.  Each region
  is entered from "every unscoped buffer at the contents before it" and left at the contents after it, its arrays split
  out of the buffers at entry and joined back at exit, its body obligation the one proved for its pipeline.  Every
  weakly fair execution therefore terminates with every unscoped buffer at the last contents; in particular no
  argument is changed, and the result array holds what the second region's write-backs leave.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the boundaries -/

/-- The first region's entry contents, read at the core's references. -/
abbrev B1 : (c : Dev nD) → (b : Ref sig .tc) → Buf (Elt F) ((c : Thread nD τ).loc b) := fun c b => V1 m c b

/-- After the first region: its arrays at what the pipeline leaves (the inputs as entered, the output's write-backs
    folded), every other buffer as entered. -/
def X2 (c : Dev nD) : Valuation τ sig (Elt F) :=
  Pipeline.withArrays spec0 c (V1 m c) fun w => (dat0 (B1 m) c).arrAt w cfg0.N
theorem X2_arr (c : Dev nD) (w : Fin cfg0.W) :
    X2 m c (Proc.devRef .tc (Pipeline.arrRef spec0 w)) = (dat0 (B1 m) c).arrAt w cfg0.N := by
  unfold X2; exact Pipeline.withArrays_arr spec0 launch0.win.arr_inj c _ _ w

/-- What the first region leaves, as the unknowns the generated valuations are written over. -/
def outsA : Outs (F := F) := fun _ r c => X2 m c r

/-- The second region's entry contents, read at the core's references. -/
abbrev E3 : (c : Dev nD) → (b : Ref sig .tc) → Buf (Elt F) ((c : Thread nD τ).loc b) := fun c b => V3 m (outsA m) c b

/-- After the second region: its arrays at what the pipeline leaves, every other buffer as entered. -/
def X4 (c : Dev nD) : Valuation τ sig (Elt F) :=
  Pipeline.withArrays spec1 c (V3 m (outsA m) c) fun w => (dat1 (E3 m) c).arrAt w cfg1.N
theorem X4_arr (c : Dev nD) (w : Fin cfg1.W) :
    X4 m c (Proc.devRef .tc (Pipeline.arrRef spec1 w)) = (dat1 (E3 m) c).arrAt w cfg1.N := by
  unfold X4; exact Pipeline.withArrays_arr spec1 launch1.win.arr_inj c _ _ w

/-- What the two regions leave: the first region's output after item 1, the second's after item 3. -/
def outs : Outs (F := F) := fun J r c => match J with
  | 4 => X4 m c r
  | _ => X2 m c r

theorem outs_two (r : Ref sig .tc) (c : Dev nD) : outs m 2 r c = X2 m c r := rfl
theorem outs_four (r : Ref sig .tc) (c : Dev nD) : outs m 4 r c = X4 m c r := rfl
theorem V2_outs (c : Dev nD) : V2 m (outs m) c = V2 m (outsA m) c := rfl
theorem V3_outs (c : Dev nD) : V3 m (outs m) c = V3 m (outsA m) c := rfl

abbrev B2 : (c : Dev nD) → (b : Ref sig .tc) → Buf (Elt F) ((c : Thread nD τ).loc b) := fun c b => V2 m (outs m) c b
abbrev B3 : (c : Dev nD) → (b : Ref sig .tc) → Buf (Elt F) ((c : Thread nD τ).loc b) := fun c b => V3 m (outs m) c b
abbrev B4 : (c : Dev nD) → (b : Ref sig .tc) → Buf (Elt F) ((c : Thread nD τ).loc b) := fun c b => V4 m (outs m) c b

/-- The first region's output array after it is what its write-backs leave. -/
theorem V2_out (c : Dev nD) : V2 m (outs m) c main_v37 = (dat0 (B1 m) c).arrAt 5 cfg0.N := by
  show Function.update (V1 m c) (Proc.devRef .tc main_v37) (outs m 2 main_v37 c) (Proc.devRef .tc main_v37) = _
  rw [Function.update_self, outs_two]
  exact X2_arr m c 5

/-- The second region's output array after it is what its write-backs leave. -/
theorem V4_out (c : Dev nD) : V4 m (outs m) c main_v43 = (dat1 (E3 m) c).arrAt 5 cfg1.N := by
  show Function.update (V3 m (outs m) c) (Proc.devRef .tc main_v43) (outs m 4 main_v43 c) (Proc.devRef .tc main_v43) = _
  rw [Function.update_self, outs_four]
  exact X4_arr m c 5

/-- At the first region's exit each of its arrays holds what the pipeline leaves, -/
theorem hF0 (c : Dev nD) (w : Fin cfg0.W) : (dat0 (B1 m) c).arrAt w cfg0.N = B2 m c (Pipeline.arrRef spec0 w) := by
  match w with
  | ⟨0, _⟩ => exact ((dat0 (B1 m) c).arrAt_in 0 rfl _).trans ((A_eq0 (B1 m) c 0).trans (V2_of m (outs m) c _ (by decide)).symm)
  | ⟨1, _⟩ => exact ((dat0 (B1 m) c).arrAt_in 1 rfl _).trans ((A_eq0 (B1 m) c 1).trans (V2_of m (outs m) c _ (by decide)).symm)
  | ⟨2, _⟩ => exact ((dat0 (B1 m) c).arrAt_in 2 rfl _).trans ((A_eq0 (B1 m) c 2).trans (V2_of m (outs m) c _ (by decide)).symm)
  | ⟨3, _⟩ => exact ((dat0 (B1 m) c).arrAt_in 3 rfl _).trans ((A_eq0 (B1 m) c 3).trans (V2_of m (outs m) c _ (by decide)).symm)
  | ⟨4, _⟩ => exact ((dat0 (B1 m) c).arrAt_in 4 rfl _).trans ((A_eq0 (B1 m) c 4).trans (V2_of m (outs m) c _ (by decide)).symm)
  | ⟨5, _⟩ => exact (V2_out m c).symm
/-- and every other buffer what it held at entry. -/
theorem hrest0 (c : Dev nD) : ∀ b, b ∉ Finset.univ.image (Pipeline.arrRef spec0) → B2 m c b = B1 m c b :=
  fun b hb => V2_of m (outs m) c b fun h => hb (by
    rw [List.mem_singleton] at h; subst h
    exact Finset.mem_image.mpr ⟨5, Finset.mem_univ _, rfl⟩)

/-- At the second region's exit each of its arrays holds what the pipeline leaves, -/
theorem hF1 (c : Dev nD) (w : Fin cfg1.W) : (dat1 (E3 m) c).arrAt w cfg1.N = B4 m c (Pipeline.arrRef spec1 w) := by
  match w with
  | ⟨0, _⟩ => exact ((dat1 (E3 m) c).arrAt_in 0 rfl _).trans ((A_eq1 (E3 m) c 0).trans (V4_of m (outs m) c _ (by decide)).symm)
  | ⟨1, _⟩ => exact ((dat1 (E3 m) c).arrAt_in 1 rfl _).trans ((A_eq1 (E3 m) c 1).trans (V4_of m (outs m) c _ (by decide)).symm)
  | ⟨2, _⟩ => exact ((dat1 (E3 m) c).arrAt_in 2 rfl _).trans ((A_eq1 (E3 m) c 2).trans (V4_of m (outs m) c _ (by decide)).symm)
  | ⟨3, _⟩ => exact ((dat1 (E3 m) c).arrAt_in 3 rfl _).trans ((A_eq1 (E3 m) c 3).trans (V4_of m (outs m) c _ (by decide)).symm)
  | ⟨4, _⟩ => exact ((dat1 (E3 m) c).arrAt_in 4 rfl _).trans ((A_eq1 (E3 m) c 4).trans (V4_of m (outs m) c _ (by decide)).symm)
  | ⟨5, _⟩ => exact (V4_out m c).symm
/-- and every other buffer what it held at entry. -/
theorem hrest1 (c : Dev nD) : ∀ b, b ∉ Finset.univ.image (Pipeline.arrRef spec1) → B4 m c b = B3 m c b :=
  fun b hb => V4_of m (outs m) c b fun h => hb (by
    rw [List.mem_singleton] at h; subst h
    exact Finset.mem_image.mpr ⟨5, Finset.mem_univ _, rfl⟩)

/-! ## The proof data family and the thread state -/

/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (B1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last contents, the generator register at
    some state. -/
abbrev Tₙ (c : Dev nD) : sProp 𝕄 := iprop(StableHlo.held (c : Thread nD τ) (Pipeline.ucRefs τ sig) (V4 m (outs m) c) ∗ ∃ r, prngReg c r)

/-! ## The regions as segments -/

set_option backward.isDefEq.respectTransparency.types false in
/-- The first region over the thread state: entered from every unscoped buffer at the contents after the first host
    stretch, left at those contents with its output array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the second host
    stretch, left at those contents with the result array at what its write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The two host stretches as segments over the unscoped references, `R` riding along. -/
abbrev hs0 : Pipeline.HostSeg (Ix := Unit) (Name := ℕ) (U := Pipeline.UD sig nD τ) (Lvl := ℕ) (pcfgs (F := F)) defs₀ 𝒱₀ L lv :=
  seg0 m 𝒱₀ L lv (fun _ => R)
abbrev hs2 : Pipeline.HostSeg (Ix := Unit) (Name := ℕ) (U := Pipeline.UD sig nD τ) (Lvl := ℕ) (pcfgs (F := F)) defs₀ 𝒱₀ L lv :=
  seg2 m (outs m) 𝒱₀ L lv (fun _ => R)

/-- @main's four segments in order. -/
abbrev segs : List (Pipeline.Seg (pcfgs (F := F)) adm (pdats m) () defs₀ 𝒱₀ L lv) :=
  [ .host (hs0 m), .region (reg0 m), .host (hs2 m), .region (reg1 m) ]

theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V4 m (outs m) c) s')
      isplitl [Hh] <;> iassumption)
    (hQ := fun s h c => h c)

/-- The frame: no argument array is changed. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c)⟩) (run_all m ρ)

/-- The run with the result array named: it ends at what the second region's write-backs leave, and no argument array
    is changed. -/
theorem run_result : θ_run defs (onTc (τ := τ) (main (F := F))) ⟨m, fun _ => 0, ρ⟩ (fun r => ∀ c : Dev nD,
      r.2.mem ((c.tc : Thread nD τ).loc main_v43) = (dat1 (E3 m) c).arrAt 5 cfg1.N) :=
  (θ_run defs _ _).mono (fun _ h c => (h c _ (mem_uc main_v43 (by decide))).trans (V4_out m c)) (run_all m ρ)

end Cert.KernelIdeal.Hand

end
-- ==== Proof.Spec.lean ====
import Idealize.ShloMosaic.Lib.ValueIdx
import Idealize.ShloMosaic.PureOps.Ideal.Laws

/-!
  The two small networks of the program as functions of one row, on the extended reals.

  A row `x` of `k` numbers goes through a hidden layer of `h` units, unit `κ` holding
  `max (∑ j, x j · w₁ (j, κ) + b₁ κ) 0`, and then through a second linear layer, entry `q` of the result being
  `∑ κ, hidden κ · w₂ (κ, q) + b₂ q`.  The edge network clamps that at zero once more; the node network does not.
  The zero is kept as the value of the f32 zero pattern, as both programs spell it.
-/

noncomputable section

namespace Cert.Spec

open Idealize.ShloMosaic Idealize.ShloMosaic.ValueIdx

/-- The value of the f32 zero pattern. -/
abbrev z32 : EReal := Ideal.ofBits .f32 0x00000000#32

/-- Unit `κ` of the hidden layer on the row `x`. -/
def hid {k h : ℕ} (x : Fin k → EReal) (w₁ : (⟨2, ![k, h]⟩ : Shape).Idx → EReal) (b₁ : (⟨1, ![h]⟩ : Shape).Idx → EReal) (κ : Fin h) : EReal :=
  max ((∑ j : Fin k, x j * w₁ (ix2 j κ)) + b₁ (ix1 κ)) z32

/-- Entry `q` of the second linear layer over the hidden layer of the row `x`. -/
def lin2 {k h b : ℕ} (x : Fin k → EReal) (w₁ : (⟨2, ![k, h]⟩ : Shape).Idx → EReal) (b₁ : (⟨1, ![h]⟩ : Shape).Idx → EReal)
    (w₂ : (⟨2, ![h, b]⟩ : Shape).Idx → EReal) (b₂ : (⟨1, ![b]⟩ : Shape).Idx → EReal) (q : Fin b) : EReal :=
  (∑ κ : Fin h, hid x w₁ b₁ κ * w₂ (ix2 κ q)) + b₂ (ix1 q)

/-- The edge network on a matrix of `a` rows: every row through both layers, clamped at zero. -/
def edgeNet {a k h b : ℕ} (A : (⟨2, ![a, k]⟩ : Shape).Idx → EReal) (w₁ : (⟨2, ![k, h]⟩ : Shape).Idx → EReal) (b₁ : (⟨1, ![h]⟩ : Shape).Idx → EReal)
    (w₂ : (⟨2, ![h, b]⟩ : Shape).Idx → EReal) (b₂ : (⟨1, ![b]⟩ : Shape).Idx → EReal) : (⟨2, ![a, b]⟩ : Shape).Idx → EReal :=
  fun i => max (lin2 (fun j => A (ix2 (i 0) j)) w₁ b₁ w₂ b₂ (i 1)) z32

/-- The node network on a matrix of `a` rows: every row through both layers. -/
def nodeNet {a k h b : ℕ} (A : (⟨2, ![a, k]⟩ : Shape).Idx → EReal) (w₁ : (⟨2, ![k, h]⟩ : Shape).Idx → EReal) (b₁ : (⟨1, ![h]⟩ : Shape).Idx → EReal)
    (w₂ : (⟨2, ![h, b]⟩ : Shape).Idx → EReal) (b₂ : (⟨1, ![b]⟩ : Shape).Idx → EReal) : (⟨2, ![a, b]⟩ : Shape).Idx → EReal :=
  fun i => lin2 (fun j => A (ix2 (i 0) j)) w₁ b₁ w₂ b₂ (i 1)

/-- A block of rows of the edge network's result is the edge network of that block of rows. -/
theorem edgeNet_rows {a a' k h b : ℕ} (A : (⟨2, ![a, k]⟩ : Shape).Idx → EReal) (A' : (⟨2, ![a', k]⟩ : Shape).Idx → EReal)
    (w₁ : (⟨2, ![k, h]⟩ : Shape).Idx → EReal) (b₁ : (⟨1, ![h]⟩ : Shape).Idx → EReal)
    (w₂ : (⟨2, ![h, b]⟩ : Shape).Idx → EReal) (b₂ : (⟨1, ![b]⟩ : Shape).Idx → EReal)
    (p : Fin a) (p' : Fin a') (q : Fin b) (hrow : ∀ j, A' (ix2 p' j) = A (ix2 p j)) :
    edgeNet A' w₁ b₁ w₂ b₂ (ix2 p' q) = edgeNet A w₁ b₁ w₂ b₂ (ix2 p q) := by
  unfold edgeNet
  have e : (fun j => A' (ix2 ((ix2 p' q : (⟨2, ![a', b]⟩ : Shape).Idx) 0) j)) = fun j => A (ix2 ((ix2 p q : (⟨2, ![a, b]⟩ : Shape).Idx) 0) j) :=
    funext fun j => hrow j
  rw [e]; rfl

/-- A block of rows of the node network's result is the node network of that block of rows. -/
theorem nodeNet_rows {a a' k h b : ℕ} (A : (⟨2, ![a, k]⟩ : Shape).Idx → EReal) (A' : (⟨2, ![a', k]⟩ : Shape).Idx → EReal)
    (w₁ : (⟨2, ![k, h]⟩ : Shape).Idx → EReal) (b₁ : (⟨1, ![h]⟩ : Shape).Idx → EReal)
    (w₂ : (⟨2, ![h, b]⟩ : Shape).Idx → EReal) (b₂ : (⟨1, ![b]⟩ : Shape).Idx → EReal)
    (p : Fin a) (p' : Fin a') (q : Fin b) (hrow : ∀ j, A' (ix2 p' j) = A (ix2 p j)) :
    nodeNet A' w₁ b₁ w₂ b₂ (ix2 p' q) = nodeNet A w₁ b₁ w₂ b₂ (ix2 p q) := by
  unfold nodeNet
  have e : (fun j => A' (ix2 ((ix2 p' q : (⟨2, ![a', b]⟩ : Shape).Idx) 0) j)) = fun j => A (ix2 ((ix2 p q : (⟨2, ![a, b]⟩ : Shape).Idx) 0) j) :=
    funext fun j => hrow j
  rw [e]; rfl

end Cert.Spec

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.IdealPayload.lean ====
import proofs.«112178_j2774548873773_1_alg».proof.Proof.Gen.KernelIdeal.Skeleton
import proofs.«112178_j2774548873773_1_alg».proof.Proof.Spec
import proofs.«112178_j2774548873773_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-!
  The value each of the two kernel bodies stores, read at one entry, over the extended reals.

  Over the extended reals a change of float format is the identity, so a body is two dense layers in a row: a matrix
  product into a zero accumulator, whose entry (p, q) is the sum over the contraction index of the products of the
  operands' entries, plus a bias row repeated over all rows, clamped at zero where the body clamps. Entry (p, q) of the
  stored value is therefore the row p of the input sent through the network of the specification, read at q.
-/

noncomputable section

namespace Cert.KernelIdeal.Pay

open Cert.KernelIdeal Cert.KernelIdeal.Gen Idealize.ShloMosaic Idealize.ShloMosaic.ValueIdx

/-! ## One dense layer at an entry -/

section Dense
variable {a k b : ℕ} {d : DotDims ⟨2, ![a, k]⟩ ⟨2, ![k, b]⟩ ⟨2, ![a, b]⟩}

/-- A bias vector of `b` entries, given a leading unit axis and repeated over `a` rows, reads at `(p, q)` its entry `q`. -/
theorem biasRows_apply (β : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ β h1) h2 (ix2 p q) = β (ix1 q) :=
  (broadcastTo_1b_ab_apply (shapeCast ⟨2, ![1, b]⟩ β h1) h2 p q).trans (shapeCast_a_1a_apply β h1 0 q)

/-- A plain product into a zero accumulator plus the repeated bias row, at `(p, q)`: the sum over the contraction index
    plus the bias entry `q`. -/
theorem dense_apply (hd : Cert.PlainDot.Plain d) (hr : d.contr.rank = 1) (hs : d.contr.size ⟨0, by omega⟩ = k)
    (l : FVec Ideal ⟨2, ![a, k]⟩ .bf16) (r : FVec Ideal ⟨2, ![k, b]⟩ .bf16) (β : FVec Ideal ⟨1, ![b]⟩ .f32)
    (h1 : (⟨1, ![b]⟩ : Shape).ShapeCasts ⟨2, ![1, b]⟩) (h2 : (⟨2, ![1, b]⟩ : Shape).Broadcasts ⟨2, ![a, b]⟩)
    (p : Fin a) (q : Fin b) :
    addf (matmul d none l r (constant ⟨2, ![a, b]⟩ .f32 0x00000000#32))
        (broadcastTo ⟨2, ![a, b]⟩ (shapeCast ⟨2, ![1, b]⟩ β h1) h2) (ix2 p q)
      = (∑ κ : Fin k, l (ix2 p κ) * r (ix2 κ q)) + β (ix1 q) :=
  congrArg₂ (· + ·) (Cert.PlainDot.matmul_zero_apply hd hr hs none l r p q) (biasRows_apply β h1 h2 p q)

end Dense

/-! ## The four products are plain -/

theorem plain0a : Cert.PlainDot.Plain dot_S6000x265_S265x128_S6000x128_1_0_0_1_n_n := ⟨rfl, rfl, rfl, rfl, rfl, rfl⟩
theorem plain0b : Cert.PlainDot.Plain dot_S6000x128_S128x128_S6000x128_1_0_0_1_n_n := ⟨rfl, rfl, rfl, rfl, rfl, rfl⟩
theorem plain1a : Cert.PlainDot.Plain dot_S5000x256_S256x128_S5000x128_1_0_0_1_n_n := ⟨rfl, rfl, rfl, rfl, rfl, rfl⟩
theorem plain1b : Cert.PlainDot.Plain dot_S5000x128_S128x128_S5000x128_1_0_0_1_n_n := ⟨rfl, rfl, rfl, rfl, rfl, rfl⟩

/-! ## The two bodies -/

/-- The edge body's stored value at `(p, q)` is the edge network of the specification there. -/
theorem pay0_apply (v0 : Vec Ideal S6000x265 .f32) (v3 : Vec Ideal S265x128 .f32) (v5 : Vec Ideal S128 .f32)
    (v13 : Vec Ideal S128x128 .f32) (v15 : Vec Ideal S128 .f32) (p : Fin 6000) (q : Fin 128) :
    k0_pay1 (F := Ideal) v0 v3 v5 v13 v15 (ix2 p q) = Cert.Spec.edgeNet v0 v3 v5 v13 v15 (ix2 p q) := by
  unfold k0_pay1
  refine congrArg (fun t : EReal => max t Cert.Spec.z32) ?_
  refine (dense_apply plain0b rfl rfl _ _ v15 _ _ p q).trans ?_
  refine congrArg (fun t : EReal => t + v15 (ix1 q)) ?_
  refine Finset.sum_congr rfl fun κ _ => ?_
  refine congrArg (fun t : EReal => t * v13 (ix2 κ q)) ?_
  refine congrArg (fun t : EReal => max t Cert.Spec.z32) ?_
  refine (dense_apply plain0a rfl rfl _ _ v5 _ _ p κ).trans ?_
  rw [shapeCast_self]
  rfl

/-- The node body's stored value at `(p, q)` is the node network of the specification there. -/
theorem pay1_apply (v0 : Vec Ideal S5000x256 .f32) (v3 : Vec Ideal S256x128 .f32) (v5 : Vec Ideal S128 .f32)
    (v13 : Vec Ideal S128x128 .f32) (v15 : Vec Ideal S128 .f32) (p : Fin 5000) (q : Fin 128) :
    k1_pay1 (F := Ideal) v0 v3 v5 v13 v15 (ix2 p q) = Cert.Spec.nodeNet v0 v3 v5 v13 v15 (ix2 p q) := by
  unfold k1_pay1
  refine (dense_apply plain1b rfl rfl _ _ v15 _ _ p q).trans ?_
  refine congrArg (fun t : EReal => t + v15 (ix1 q)) ?_
  refine Finset.sum_congr rfl fun κ _ => ?_
  refine congrArg (fun t : EReal => t * v13 (ix2 κ q)) ?_
  refine congrArg (fun t : EReal => max t Cert.Spec.z32) ?_
  refine (dense_apply plain1a rfl rfl _ _ v5 _ _ p κ).trans ?_
  rw [shapeCast_self]
  rfl

end Cert.KernelIdeal.Pay

end
-- ==== Proof.IdealValue0.lean ====
import proofs.«112178_j2774548873773_1_alg».proof.Proof.IdealRegion0
import proofs.«112178_j2774548873773_1_alg».proof.Proof.Spec
import Idealize.ShloMosaic.Lib.Pipeline.Value
import Idealize.ShloMosaic.Lib.ValueIdx

/-!
  The edge network's region at the ideal instance: the edge-feature array after the region, as ONE function of the
  arrays the region finds.

  Each grid point writes back a block of 6000 rows of the edge features, holding the body's value of the
  block of the same 6000 rows of the edge-input matrix and of the two weight matrices and the two bias vectors whole.
  The body's value at an entry is taken as a hypothesis: it is the edge network of the loaded blocks at that entry.
  The edge network works row by row, so a block of rows of its result is the network of that block of rows; hence
  what point `t` writes back is block `t` of the edge network of the whole arrays, and, the blocks covering the
  600000 rows, the array ends holding the edge network of the arrays.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The index maps, decided once over the grid -/

theorem hz0 : (![0, 0] : Fin 2 → Nat) = fun _ => 0 := funext fun a => by fin_cases a <;> rfl
theorem hz0' : (![0] : Fin 1 → Nat) = fun _ => 0 := funext fun a => by fin_cases a; rfl

/-- At point `t` the edge-input window and the output window are at block `(t, 0)`; the two weight matrices' and the
    two bias vectors' windows are at block index zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks, read where their rectangles say -/

/-- The edge-input window's block at point `t` is the 6000 rows of its array from row `6000 t` on. -/
theorem rows0 (c : Dev nD) (t : Fin cfg0.N) (p : Fin 6000) (r : Fin 600000) (j : Fin 265) (hr : r.val = t.val * 6000 + 1 * p.val) :
    (iblk0 V c 0 t : Vec Ideal S6000x265 .f32) (ix2 p j) = (V c main_v36 : S600000x265.Idx → EReal) (ix2 r j) := by
  obtain ⟨e0, e1, -⟩ := idx_facts0 t
  show V c main_v36 (((cfg0.win 0).blk t).view.emb (ix2 p j)) = V c main_v36 (ix2 r j)
  congr 1
  funext a; apply Fin.ext
  match a with
  | ⟨0, _⟩ => show win0_0.index t (0 : Fin 2) * 6000 + 1 * p.val = r.val; rw [e0, hr]
  | ⟨1, _⟩ => show win0_0.index t (1 : Fin 2) * 265 + 1 * j.val = j.val; rw [e1]; omega

/-- The first weight matrix's block at every point is the matrix. -/
theorem weightA0 (c : Dev nD) (t : Fin cfg0.N) : (iblk0 V c 1 t : Vec Ideal S265x128 .f32) = V c main_arg4 := by
  obtain ⟨-, -, e0, e1, -⟩ := idx_facts0 t
  funext y
  show V c main_arg4 (((cfg0.win 1).blk t).view.emb y) = V c main_arg4 y
  congr 1
  funext a; apply Fin.ext
  match a with
  | ⟨0, _⟩ => show win0_1.index t (0 : Fin 2) * 265 + 1 * (y 0).val = (y 0).val; rw [e0]; omega
  | ⟨1, _⟩ => show win0_1.index t (1 : Fin 2) * 128 + 1 * (y 1).val = (y 1).val; rw [e1]; omega

/-- The first bias vector's block at every point is the vector. -/
theorem biasA0 (c : Dev nD) (t : Fin cfg0.N) : (iblk0 V c 2 t : Vec Ideal S128 .f32) = V c main_arg5 := by
  obtain ⟨-, -, -, -, e0, -⟩ := idx_facts0 t
  funext y
  show V c main_arg5 (((cfg0.win 2).blk t).view.emb y) = V c main_arg5 y
  congr 1
  funext a; apply Fin.ext
  match a with
  | ⟨0, _⟩ => show win0_2.index t (0 : Fin 1) * 128 + 1 * (y 0).val = (y 0).val; rw [e0]; omega

/-- The second weight matrix's block at every point is the matrix. -/
theorem weightB0 (c : Dev nD) (t : Fin cfg0.N) : (iblk0 V c 3 t : Vec Ideal S128x128 .f32) = V c main_arg6 := by
  obtain ⟨-, -, -, -, -, e0, e1, -⟩ := idx_facts0 t
  funext y
  show V c main_arg6 (((cfg0.win 3).blk t).view.emb y) = V c main_arg6 y
  congr 1
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias vector's block at every point is the vector. -/
theorem biasB0 (c : Dev nD) (t : Fin cfg0.N) : (iblk0 V c 4 t : Vec Ideal S128 .f32) = V c main_arg7 := by
  obtain ⟨-, -, -, -, -, -, -, e0, -⟩ := idx_facts0 t
  funext y
  show V c main_arg7 (((cfg0.win 4).blk t).view.emb y) = V c main_arg7 y
  congr 1
  funext a; apply Fin.ext
  match a with
  | ⟨0, _⟩ => show win0_4.index t (0 : Fin 1) * 128 + 1 * (y 0).val = (y 0).val; rw [e0]; omega

/-! ## The cover, by arithmetic -/

/-- An index of the array is in point `t`'s block iff each coordinate is in the block's range on its axis. -/
theorem mem_blk0 (t : Fin cfg0.N) (i : S600000x128.Idx) :
    i ∈ ((cfg0.win 5).blk t).view.set ↔ ∀ a : Fin 2, win0_5.index t a * S6000x128.size a ≤ (i a).val ∧ (i a).val < win0_5.index t a * S6000x128.size a + S6000x128.size a := by
  show i ∈ ((View.whole main_v37).slice (win0_5.rect t)).set ↔ _
  rw [View.set_slice_whole, Rect.mem_set_unit]
  exact Iff.rfl

/-- Every row `r` of the array is in the block of the point `r / 6000`, which is written back. -/
theorem cover_rows0 (i : S600000x128.Idx) : ∃ t : Fin cfg0.N, (cfg0.win 5).flush t = true ∧ i ∈ ((cfg0.win 5).blk t).view.set := by
  have hi0 : (i 0).val < 600000 := (i 0).isLt
  have hi1 : (i 1).val < 128 := (i 1).isLt
  obtain ⟨t, ht⟩ : ∃ t : Fin cfg0.N, t.val = (i 0).val / 6000 :=
    ⟨⟨(i 0).val / 6000, by show (i 0).val / 6000 < grid0.N; rw [N_0]; omega⟩, rfl⟩
  obtain ⟨-, -, -, -, -, -, -, -, e0, e1⟩ := idx_facts0 t
  refine ⟨t, flush0_5 t, ?_⟩
  rw [mem_blk0]
  intro a
  match a with
  | ⟨0, _⟩ => show win0_5.index t (0 : Fin 2) * 6000 ≤ (i 0).val ∧ (i 0).val < win0_5.index t (0 : Fin 2) * 6000 + 6000; rw [e0, ht]; omega
  | ⟨1, _⟩ => show win0_5.index t (1 : Fin 2) * 128 ≤ (i 1).val ∧ (i 1).val < win0_5.index t (1 : Fin 2) * 128 + 128; rw [e1]; omega

/-! ## The body's value at an entry, as a hypothesis -/

variable (hpay : ∀ (v0 : Vec Ideal S6000x265 .f32) (v3 : Vec Ideal S265x128 .f32) (v5 : Vec Ideal S128 .f32) (v13 : Vec Ideal S128x128 .f32) (v15 : Vec Ideal S128 .f32) (p : Fin 6000) (q : Fin 128),
    k0_pay1 (F := Ideal) v0 v3 v5 v13 v15 (ix2 p q) = Cert.Spec.edgeNet v0 v3 v5 v13 v15 (ix2 p q))
include hpay

/-! ## The body's value on a block of rows -/

/-- When the loaded edge-input block is rows `n · 6000 + p` of the matrix `A` and the other four loaded blocks are the
    weights and biases themselves, the body's value at entry `y` of the block is the edge network of `A` at the entry
    `i` of the array that sits `n` blocks of rows down. -/
theorem blockRow0 (A : S600000x265.Idx → EReal) (x0 : Vec Ideal S6000x265 .f32)
    (x1 w₁ : Vec Ideal S265x128 .f32) (x2 b₁ : Vec Ideal S128 .f32) (x3 w₂ : Vec Ideal S128x128 .f32) (x4 b₂ : Vec Ideal S128 .f32) (n : ℕ)
    (h0 : ∀ (p : Fin 6000) (r : Fin 600000) (j : Fin 265), r.val = n * 6000 + 1 * p.val → x0 (ix2 p j) = A (ix2 r j))
    (h1 : x1 = w₁) (h2 : x2 = b₁) (h3 : x3 = w₂) (h4 : x4 = b₂)
    (y : S6000x128.Idx) (i : S600000x128.Idx) (hi0 : (i 0).val = n * 6000 + 1 * (y 0).val) (hi1 : (i 1).val = 0 * 128 + 1 * (y 1).val) :
    k0_pay1 (F := Ideal) x0 x1 x2 x3 x4 y = Cert.Spec.edgeNet A w₁ b₁ w₂ b₂ i := by
  subst h1 h2 h3 h4
  obtain ⟨p, q, rfl⟩ : ∃ (p : Fin 6000) (q : Fin 128), y = ix2 p q := ⟨y 0, y 1, eq_ix2 y⟩
  obtain ⟨r, q', rfl⟩ : ∃ (r : Fin 600000) (q' : Fin 128), i = ix2 r q' := ⟨i 0, i 1, eq_ix2 i⟩
  have hr : r.val = n * 6000 + 1 * p.val := hi0
  have hq : q' = q := Fin.ext (by have h : q'.val = 0 * 128 + 1 * q.val := hi1; omega)
  subst hq
  rw [hpay]
  exact Cert.Spec.edgeNet_rows A x0 x1 x2 x3 x4 r p q' (fun j => h0 p r j hr)

/-! ## What a point writes back -/

/-- What point `t` writes back is block `t` of the edge network of the arrays as the region finds them. -/
theorem flushed0 (c : Dev nD) (t : Fin cfg0.N) :
    (dat0 V c).flushed 5 t = ((cfg0.win 5).blk t).view.read (Elt Ideal) (Cert.Spec.edgeNet (V c main_v36) (V c main_arg4) (V c main_arg5) (V c main_arg6) (V c main_arg7)) := by
  show (cfg0.win 5).cut (grid0.coords t) ((dat0 V c).after 5 t) = _
  rw [after0_5]
  unfold out0_5
  rw [View.canon_unit_zero hz0]
  simp only [View.ld_unit_zero (S := S6000x265) hz0, View.ld_unit_zero (S := S265x128) hz0, View.ld_unit_zero (S := S128x128) hz0, View.ld_unit_zero (S := S128) hz0']
  obtain ⟨-, -, -, -, -, -, -, -, e0, e1⟩ := idx_facts0 t
  funext y
  show k0_pay1 (F := Ideal) (iblk0 V c 0 t) (iblk0 V c 1 t) (iblk0 V c 2 t) (iblk0 V c 3 t) (iblk0 V c 4 t) y
    = Cert.Spec.edgeNet (V c main_v36) (V c main_arg4) (V c main_arg5) (V c main_arg6) (V c main_arg7) (((cfg0.win 5).blk t).view.emb y)
  refine blockRow0 hpay (V c main_v36) (iblk0 V c 0 t) (iblk0 V c 1 t) (V c main_arg4) (iblk0 V c 2 t) (V c main_arg5) (iblk0 V c 3 t) (V c main_arg6)
    (iblk0 V c 4 t) (V c main_arg7) t.val (fun p r j hr => rows0 V c t p r j hr) (weightA0 V c t) (biasA0 V c t) (weightB0 V c t) (biasB0 V c t) y _ ?_ ?_
  · show win0_5.index t (0 : Fin 2) * 6000 + 1 * (y 0).val = t.val * 6000 + 1 * (y 0).val; rw [e0]
  · show win0_5.index t (1 : Fin 2) * 128 + 1 * (y 1).val = 0 * 128 + 1 * (y 1).val; rw [e1]

/-! ## The array after the region -/

/-- The edge-feature array after the region is the edge network of the edge-input matrix, the two weight matrices and
    the two bias vectors as the region finds them. -/
theorem final0 (c : Dev nD) :
    (dat0 V c).arrAt 5 cfg0.N = Cert.Spec.edgeNet (V c main_v36) (V c main_arg4) (V c main_arg5) (V c main_arg6) (V c main_arg7) :=
  (dat0 V c).arrAt_eq_of_cover 5 (Cert.Spec.edgeNet (V c main_v36) (V c main_arg4) (V c main_arg5) (V c main_arg6) (V c main_arg7))
    (fun t _ => flushed0 V hpay c t) cover_rows0

end Cert.KernelIdeal.Hand

end
-- ==== Proof.IdealValue1.lean ====
import proofs.«112178_j2774548873773_1_alg».proof.Proof.IdealRegion1
import proofs.«112178_j2774548873773_1_alg».proof.Proof.Spec
import Idealize.ShloMosaic.Lib.Pipeline.Value
import Idealize.ShloMosaic.Lib.ValueIdx

/-!
  The node network's region at the ideal instance: the result array after the region, as ONE function of the
  arrays the region finds.

  Each grid point writes back a block of 5000 rows of the result, holding the body's value of the
  block of the same 5000 rows of the node-input matrix and of the two weight matrices and the two bias vectors whole.
  The body's value at an entry is taken as a hypothesis: it is the node network of the loaded blocks at that entry.
  The node network works row by row, so a block of rows of its result is the network of that block of rows; hence
  what point `t` writes back is block `t` of the node network of the whole arrays, and, the blocks covering the
  50000 rows, the array ends holding the node network of the arrays.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The index maps, decided once over the grid -/

theorem hz1 : (![0, 0] : Fin 2 → Nat) = fun _ => 0 := funext fun a => by fin_cases a <;> rfl
theorem hz1' : (![0] : Fin 1 → Nat) = fun _ => 0 := funext fun a => by fin_cases a; rfl

/-- At point `t` the node-input window and the output window are at block `(t, 0)`; the two weight matrices' and the
    two bias vectors' windows are at block index zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## The input blocks, read where their rectangles say -/

/-- The node-input window's block at point `t` is the 5000 rows of its array from row `5000 t` on. -/
theorem rows1 (c : Dev nD) (t : Fin cfg1.N) (p : Fin 5000) (r : Fin 50000) (j : Fin 256) (hr : r.val = t.val * 5000 + 1 * p.val) :
    (iblk1 V c 0 t : Vec Ideal S5000x256 .f32) (ix2 p j) = (V c main_v42 : S50000x256.Idx → EReal) (ix2 r j) := by
  obtain ⟨e0, e1, -⟩ := idx_facts1 t
  show V c main_v42 (((cfg1.win 0).blk t).view.emb (ix2 p j)) = V c main_v42 (ix2 r j)
  congr 1
  funext a; apply Fin.ext
  match a with
  | ⟨0, _⟩ => show win1_0.index t (0 : Fin 2) * 5000 + 1 * p.val = r.val; rw [e0, hr]
  | ⟨1, _⟩ => show win1_0.index t (1 : Fin 2) * 256 + 1 * j.val = j.val; rw [e1]; omega

/-- The first weight matrix's block at every point is the matrix. -/
theorem weightA1 (c : Dev nD) (t : Fin cfg1.N) : (iblk1 V c 1 t : Vec Ideal S256x128 .f32) = V c main_arg8 := by
  obtain ⟨-, -, e0, e1, -⟩ := idx_facts1 t
  funext y
  show V c main_arg8 (((cfg1.win 1).blk t).view.emb y) = V c main_arg8 y
  congr 1
  funext a; apply Fin.ext
  match a with
  | ⟨0, _⟩ => show win1_1.index t (0 : Fin 2) * 256 + 1 * (y 0).val = (y 0).val; rw [e0]; omega
  | ⟨1, _⟩ => show win1_1.index t (1 : Fin 2) * 128 + 1 * (y 1).val = (y 1).val; rw [e1]; omega

/-- The first bias vector's block at every point is the vector. -/
theorem biasA1 (c : Dev nD) (t : Fin cfg1.N) : (iblk1 V c 2 t : Vec Ideal S128 .f32) = V c main_arg9 := by
  obtain ⟨-, -, -, -, e0, -⟩ := idx_facts1 t
  funext y
  show V c main_arg9 (((cfg1.win 2).blk t).view.emb y) = V c main_arg9 y
  congr 1
  funext a; apply Fin.ext
  match a with
  | ⟨0, _⟩ => show win1_2.index t (0 : Fin 1) * 128 + 1 * (y 0).val = (y 0).val; rw [e0]; omega

/-- The second weight matrix's block at every point is the matrix. -/
theorem weightB1 (c : Dev nD) (t : Fin cfg1.N) : (iblk1 V c 3 t : Vec Ideal S128x128 .f32) = V c main_arg10 := by
  obtain ⟨-, -, -, -, -, e0, e1, -⟩ := idx_facts1 t
  funext y
  show V c main_arg10 (((cfg1.win 3).blk t).view.emb y) = V c main_arg10 y
  congr 1
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The second bias vector's block at every point is the vector. -/
theorem biasB1 (c : Dev nD) (t : Fin cfg1.N) : (iblk1 V c 4 t : Vec Ideal S128 .f32) = V c main_arg11 := by
  obtain ⟨-, -, -, -, -, -, -, e0, -⟩ := idx_facts1 t
  funext y
  show V c main_arg11 (((cfg1.win 4).blk t).view.emb y) = V c main_arg11 y
  congr 1
  funext a; apply Fin.ext
  match a with
  | ⟨0, _⟩ => show win1_4.index t (0 : Fin 1) * 128 + 1 * (y 0).val = (y 0).val; rw [e0]; omega

/-! ## The cover, by arithmetic -/

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every row `r` of the array is in the block of the point `r / 5000`, which is written back. -/
theorem cover_rows1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, e0, e1⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-! ## The body's value at an entry, as a hypothesis -/

variable (hpay : ∀ (v0 : Vec Ideal S5000x256 .f32) (v3 : Vec Ideal S256x128 .f32) (v5 : Vec Ideal S128 .f32) (v13 : Vec Ideal S128x128 .f32) (v15 : Vec Ideal S128 .f32) (p : Fin 5000) (q : Fin 128),
    k1_pay1 (F := Ideal) v0 v3 v5 v13 v15 (ix2 p q) = Cert.Spec.nodeNet v0 v3 v5 v13 v15 (ix2 p q))
include hpay

/-! ## The body's value on a block of rows -/

/-- When the loaded node-input block is rows `n · 5000 + p` of the matrix `A` and the other four loaded blocks are the
    weights and biases themselves, the body's value at entry `y` of the block is the node network of `A` at the entry
    `i` of the array that sits `n` blocks of rows down. -/
theorem blockRow1 (A : S50000x256.Idx → EReal) (x0 : Vec Ideal S5000x256 .f32)
    (x1 w₁ : Vec Ideal S256x128 .f32) (x2 b₁ : Vec Ideal S128 .f32) (x3 w₂ : Vec Ideal S128x128 .f32) (x4 b₂ : Vec Ideal S128 .f32) (n : ℕ)
    (h0 : ∀ (p : Fin 5000) (r : Fin 50000) (j : Fin 256), r.val = n * 5000 + 1 * p.val → x0 (ix2 p j) = A (ix2 r j))
    (h1 : x1 = w₁) (h2 : x2 = b₁) (h3 : x3 = w₂) (h4 : x4 = b₂)
    (y : S5000x128.Idx) (i : S50000x128.Idx) (hi0 : (i 0).val = n * 5000 + 1 * (y 0).val) (hi1 : (i 1).val = 0 * 128 + 1 * (y 1).val) :
    k1_pay1 (F := Ideal) x0 x1 x2 x3 x4 y = Cert.Spec.nodeNet A w₁ b₁ w₂ b₂ i := by
  subst h1 h2 h3 h4
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hr : r.val = n * 5000 + 1 * p.val := hi0
  have hq : q' = q := Fin.ext (by have h : q'.val = 0 * 128 + 1 * q.val := hi1; omega)
  subst hq
  rw [hpay]
  exact Cert.Spec.nodeNet_rows A x0 x1 x2 x3 x4 r p q' (fun j => h0 p r j hr)

/-! ## What a point writes back -/

/-- What point `t` writes back is block `t` of the node network of the arrays as the region finds them. -/
theorem flushed1 (c : Dev nD) (t : Fin cfg1.N) :
    (dat1 V c).flushed 5 t = ((cfg1.win 5).blk t).view.read (Elt Ideal) (Cert.Spec.nodeNet (V c main_v42) (V c main_arg8) (V c main_arg9) (V c main_arg10) (V c main_arg11)) := by
  show (cfg1.win 5).cut (grid1.coords t) ((dat1 V c).after 5 t) = _
  rw [after1_5]
  unfold out1_5
  rw [View.canon_unit_zero hz1]
  simp only [View.ld_unit_zero (S := S5000x256) hz1, View.ld_unit_zero (S := S256x128) hz1, View.ld_unit_zero (S := S128x128) hz1, View.ld_unit_zero (S := S128) hz1']
  obtain ⟨-, -, -, -, -, -, -, -, e0, e1⟩ := idx_facts1 t
  funext y
  show k1_pay1 (F := Ideal) (iblk1 V c 0 t) (iblk1 V c 1 t) (iblk1 V c 2 t) (iblk1 V c 3 t) (iblk1 V c 4 t) y
    = Cert.Spec.nodeNet (V c main_v42) (V c main_arg8) (V c main_arg9) (V c main_arg10) (V c main_arg11) (((cfg1.win 5).blk t).view.emb y)
  refine blockRow1 hpay (V c main_v42) (iblk1 V c 0 t) (iblk1 V c 1 t) (V c main_arg8) (iblk1 V c 2 t) (V c main_arg9) (iblk1 V c 3 t) (V c main_arg10)
    (iblk1 V c 4 t) (V c main_arg11) t.val (fun p r j hr => rows1 V c t p r j hr) (weightA1 V c t) (biasA1 V c t) (weightB1 V c t) (biasB1 V c t) y _ ?_ ?_
  · show win1_5.index t (0 : Fin 2) * 5000 + 1 * (y 0).val = t.val * 5000 + 1 * (y 0).val; rw [e0]
  · show win1_5.index t (1 : Fin 2) * 128 + 1 * (y 1).val = 0 * 128 + 1 * (y 1).val; rw [e1]

/-! ## The array after the region -/

/-- The result array after the region is the node network of the node-input matrix, the two weight matrices and
    the two bias vectors as the region finds them. -/
theorem final1 (c : Dev nD) :
    (dat1 V c).arrAt 5 cfg1.N = Cert.Spec.nodeNet (V c main_v42) (V c main_arg8) (V c main_arg9) (V c main_arg10) (V c main_arg11) :=
  (dat1 V c).arrAt_eq_of_cover 5 (Cert.Spec.nodeNet (V c main_v42) (V c main_arg8) (V c main_arg9) (V c main_arg10) (V c main_arg11))
    (fun t _ => flushed1 V hpay c t) cover_rows1

end Cert.KernelIdeal.Hand

end
-- ==== Proof.IdealHost.lean ====
/-
  What the host operations of the kernel's program compute between its two regions, as terms of the arguments.
  Before the first region they build the edge-input matrix: per edge, the node features at its two endpoints (negative
  indices counted from the end), its squared length from the endpoints' coordinates, and its attributes, side by side.
  Between the regions they sum the edge messages (widened to f32) into the rows of their first endpoints and set the
  sums beside the node features.
-/
import proofs.«112178_j2774548873773_1_alg».proof.Proof.Gen.KernelIdeal.Regions
import Idealize.ShloMosaic.Lib.StableHlo.Run
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The host operations before the first region: the edge-input matrix -/

/-- The edges' first endpoints: row 0 of the edge list, as a vector of 600000 node indices. -/
def rowK (x2 : (⟨S2x600000, .i32⟩ : BufTy).Contents (Elt F)) : (⟨S600000, .i32⟩ : BufTy).Contents (Elt F) :=
  shapeCast S600000 (extractStridedSlice S1x600000 ![0, 0] x2 slices_S2x600000_S1x600000_0_0) shapeCasts_S1x600000_S600000

/-- The edges' second endpoints: row 1 of the edge list, as a vector of 600000 node indices. -/
def colK (x2 : (⟨S2x600000, .i32⟩ : BufTy).Contents (Elt F)) : (⟨S600000, .i32⟩ : BufTy).Contents (Elt F) :=
  shapeCast S600000 (extractStridedSlice S1x600000 ![1, 0] x2 slices_S2x600000_S1x600000_1_0) shapeCasts_S1x600000_S600000

/-- A node index counted from the end where it is negative: `r + 50000` where `r < 0`, else `r`; as a column of
    one-coordinate gather indices. -/
def wrapK (r : (⟨S600000, .i32⟩ : BufTy).Contents (Elt F)) : (⟨S600000x1, .i32⟩ : BufTy).Contents (Elt F) :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- The node features at the endpoints `r` of the edges: row `e` is row `r e` of `x0`. -/
def featK (x0 : (⟨S50000x128, .f32⟩ : BufTy).Contents (Elt F)) (r : (⟨S600000, .i32⟩ : BufTy).Contents (Elt F)) :
    (⟨S600000x128, .f32⟩ : BufTy).Contents (Elt F) :=
  Host.gather gather_S50000x128_S600000x1_S600000x128_1_0_n_n_0_1_1128 x0 (wrapK (F := F) r)

/-- The coordinates at the endpoints `r` of the edges: row `e` is row `r e` of `x1`. -/
def posK (x1 : (⟨S50000x3, .f32⟩ : BufTy).Contents (Elt F)) (r : (⟨S600000, .i32⟩ : BufTy).Contents (Elt F)) :
    (⟨S600000x3, .f32⟩ : BufTy).Contents (Elt F) :=
  Host.gather gather_S50000x3_S600000x1_S600000x3_1_0_n_n_0_1_13 x1 (wrapK (F := F) r)

/-- The edges' squared lengths, as a column: the sum over the three coordinates of the squared difference of the
    endpoints' coordinates. -/
def radK (x1 : (⟨S50000x3, .f32⟩ : BufTy).Contents (Elt F)) (x2 : (⟨S2x600000, .i32⟩ : BufTy).Contents (Elt F)) :
    (⟨S600000x1, .f32⟩ : BufTy).Contents (Elt F) :=
  broadcastInDim S600000x1 ![0] bcast_S600000_S600000x1_0
    (Host.reduceAdd
      (mulf (subf (posK x1 (rowK x2)) (posK x1 (colK x2))) (subf (posK x1 (rowK x2)) (posK x1 (colK x2))))
      (constant S_ .f32 0x00000000#32) reducesTo_S600000x3_S600000_d1 h_S_)

/-- The edge-input matrix: per edge, the features of its first endpoint, those of its second, its squared length
    and its eight attributes, side by side (128 + 128 + 1 + 8 = 265 columns). -/
def einK (x0 : (⟨S50000x128, .f32⟩ : BufTy).Contents (Elt F)) (x1 : (⟨S50000x3, .f32⟩ : BufTy).Contents (Elt F))
    (x2 : (⟨S2x600000, .i32⟩ : BufTy).Contents (Elt F)) (x3 : (⟨S600000x8, .f32⟩ : BufTy).Contents (Elt F)) :
    (⟨S600000x265, .f32⟩ : BufTy).Contents (Elt F) :=
  concatenate S600000x265 1
    [⟨S600000x128, featK x0 (rowK x2)⟩, ⟨S600000x128, featK x0 (colK x2)⟩, ⟨S600000x1, radK x1 x2⟩, ⟨S600000x8, x3⟩]
    concatenates_S600000x128_S600000x128_S600000x1_S600000x8_S600000x265_d1

/-- After the first host stretch the edges' first endpoints stand in `main_v1`. -/
theorem V1_v1 (m : (ℓ : Loc nD τ sig) → Buf (Elt F) ℓ) (c : Dev nD) :
    V1 m c main_v1 = rowK (m ((c : Thread nD τ).loc main_arg2)) := by
  show StableHlo.after hostOps0 (fun b => m (c, b)) (Proc.devRef .tc main_v1) = _
  after_results_simp <;> rfl

/-- The last operation of the first host stretch joins four arrays side by side: from any contents `W`, its result is
    the concatenation of what `W` holds at its four operands. -/
theorem v36_result (W : Valuation τ sig (Elt F)) :
    (StableHlo.nary ![main_v10, main_v17, main_v35, main_arg3] main_v36 (fun u => concatenate S600000x265 1 [⟨S600000x128, u 0⟩, ⟨S600000x128, u 1⟩, ⟨S600000x1, u 2⟩, ⟨S600000x8, u 3⟩] concatenates_S600000x128_S600000x128_S600000x1_S600000x8_S600000x265_d1) : HloOp τ sig (Elt F)).result W (Proc.devRef .tc main_v36)
      = concatenate S600000x265 1 [⟨S600000x128, W (Proc.devRef .tc main_v10)⟩, ⟨S600000x128, W (Proc.devRef .tc main_v17)⟩,
          ⟨S600000x1, W (Proc.devRef .tc main_v35)⟩, ⟨S600000x8, W (Proc.devRef .tc main_arg3)⟩]
          concatenates_S600000x128_S600000x128_S600000x1_S600000x8_S600000x265_d1 := by
  rw [nary4_result]
  rfl

/-- Equal operands, equal concatenations. -/
theorem concat4_congr {A A' : (⟨S600000x128, .f32⟩ : BufTy).Contents (Elt F)} {B B' : (⟨S600000x128, .f32⟩ : BufTy).Contents (Elt F)}
    {C C' : (⟨S600000x1, .f32⟩ : BufTy).Contents (Elt F)} {D D' : (⟨S600000x8, .f32⟩ : BufTy).Contents (Elt F)}
    (hA : A = A') (hB : B = B') (hC : C = C') (hD : D = D') :
    concatenate S600000x265 1 [⟨S600000x128, A⟩, ⟨S600000x128, B⟩, ⟨S600000x1, C⟩, ⟨S600000x8, D⟩]
        concatenates_S600000x128_S600000x128_S600000x1_S600000x8_S600000x265_d1
      = concatenate S600000x265 1 [⟨S600000x128, A'⟩, ⟨S600000x128, B'⟩, ⟨S600000x1, C'⟩, ⟨S600000x8, D'⟩]
        concatenates_S600000x128_S600000x128_S600000x1_S600000x8_S600000x265_d1 := by
  subst hA hB hC hD; rfl

set_option maxHeartbeats 4000000 in
/-- After the first host stretch the edge-input matrix stands in `main_v36`: each of the four joined operands is
    read back through the operations that made it, down to the launch contents of the arguments. -/
theorem V1_v36 (m : (ℓ : Loc nD τ sig) → Buf (Elt F) ℓ) (c : Dev nD) :
    V1 m c main_v36 = einK (m ((c : Thread nD τ).loc main_arg0)) (m ((c : Thread nD τ).loc main_arg1))
      (m ((c : Thread nD τ).loc main_arg2)) (m ((c : Thread nD τ).loc main_arg3)) := by
  show StableHlo.after hostOps0 (fun b => m (c, b)) (Proc.devRef .tc main_v36) = _
  simp only [after_cons, after_nil]
  rw [v36_result]
  unfold einK
  apply concat4_congr
  · after_results_simp <;> rfl
  · after_results_simp <;> rfl
  · after_results_simp <;> rfl
  · after_results_simp <;> rfl

/-! ## The host operations between the regions: the node-input matrix -/

/-- What the second host stretch leaves in `main_v42`, from any contents `V`: the node features beside the
    edge messages (widened to f32) summed into their first endpoints' rows. -/
theorem hostOps1_v42 (V : Valuation τ sig (Elt F)) :
    StableHlo.after hostOps1 V (Proc.devRef .tc main_v42)
      = concatenate S50000x256 1 [⟨S50000x128, V (Proc.devRef .tc main_arg0)⟩,
          ⟨S50000x128, Host.scatterAdd scatter_S50000x128_S600000x1_S600000x128_1_0_0_1
            (broadcastInDim S50000x128 ![] bcast_S_S50000x128 (constant S_ .f32 0x00000000#32))
            (broadcastInDim S600000x1 ![0] bcast_S600000_S600000x1_0 (V (Proc.devRef .tc main_v1)))
            (extf .f32 (V (Proc.devRef .tc main_v37)) bitsLt_bf16_f32)⟩]
          concatenates_S50000x128_S50000x128_S50000x256_d1 := by
  after_results_simp <;> rfl

/-- After the second host stretch the node-input matrix stands in `main_v42`: the node features beside the sum,
    per node, of the messages the first region left on the edges whose first endpoint it is. -/
theorem V3_v42 (m : (ℓ : Loc nD τ sig) → Buf (Elt F) ℓ) (outs : Outs (F := F)) (c : Dev nD) :
    V3 m outs c main_v42 = concatenate S50000x256 1 [⟨S50000x128, m ((c : Thread nD τ).loc main_arg0)⟩,
      ⟨S50000x128, Host.scatterAdd scatter_S50000x128_S600000x1_S600000x128_1_0_0_1
        (broadcastInDim S50000x128 ![] bcast_S_S50000x128 (constant S_ .f32 0x00000000#32))
        (broadcastInDim S600000x1 ![0] bcast_S600000_S600000x1_0 (rowK (m ((c : Thread nD τ).loc main_arg2))))
        (extf .f32 (outs 2 main_v37 c) bitsLt_bf16_f32)⟩] concatenates_S50000x128_S50000x128_S50000x256_d1 := by
  have h0 : V2 m outs c main_arg0 = m ((c : Thread nD τ).loc main_arg0) :=
    (V2_of m outs c main_arg0 (by decide)).trans ((V1_of m c main_arg0 (by decide)).trans rfl)
  have h1 : V2 m outs c main_v1 = rowK (m ((c : Thread nD τ).loc main_arg2)) :=
    (V2_of m outs c main_v1 (by decide)).trans (V1_v1 m c)
  have h37 : V2 m outs c main_v37 = outs 2 main_v37 c := Function.update_self ..
  show StableHlo.after hostOps1 (V2 m outs c) (Proc.devRef .tc main_v42) = _
  rw [hostOps1_v42, h0, h1, h37]

/-- No host stretch and no region writes an argument: the second region's weights are the launch contents. -/
theorem V3_arg (m : (ℓ : Loc nD τ sig) → Buf (Elt F) ℓ) (outs : Outs (F := F)) (c : Dev nD) :
    V3 m outs c main_arg8 = m ((c : Thread nD τ).loc main_arg8)
    ∧ V3 m outs c main_arg9 = m ((c : Thread nD τ).loc main_arg9)
    ∧ V3 m outs c main_arg10 = m ((c : Thread nD τ).loc main_arg10)
    ∧ V3 m outs c main_arg11 = m ((c : Thread nD τ).loc main_arg11) :=
  ⟨(V3_of m outs c main_arg8 (by decide)).trans ((V2_of m outs c main_arg8 (by decide)).trans ((V1_of m c main_arg8 (by decide)).trans rfl)),
   (V3_of m outs c main_arg9 (by decide)).trans ((V2_of m outs c main_arg9 (by decide)).trans ((V1_of m c main_arg9 (by decide)).trans rfl)),
   (V3_of m outs c main_arg10 (by decide)).trans ((V2_of m outs c main_arg10 (by decide)).trans ((V1_of m c main_arg10 (by decide)).trans rfl)),
   (V3_of m outs c main_arg11 (by decide)).trans ((V2_of m outs c main_arg11 (by decide)).trans ((V1_of m c main_arg11 (by decide)).trans rfl))⟩

/-- The first region's weights are the launch contents. -/
theorem V1_arg (m : (ℓ : Loc nD τ sig) → Buf (Elt F) ℓ) (c : Dev nD) :
    V1 m c main_arg4 = m ((c : Thread nD τ).loc main_arg4)
    ∧ V1 m c main_arg5 = m ((c : Thread nD τ).loc main_arg5)
    ∧ V1 m c main_arg6 = m ((c : Thread nD τ).loc main_arg6)
    ∧ V1 m c main_arg7 = m ((c : Thread nD τ).loc main_arg7) :=
  ⟨(V1_of m c main_arg4 (by decide)).trans rfl, (V1_of m c main_arg5 (by decide)).trans rfl,
   (V1_of m c main_arg6 (by decide)).trans rfl, (V1_of m c main_arg7 (by decide)).trans rfl⟩

end Cert.KernelIdeal.Hand
end
-- ==== Proof.IdealHostRef.lean ====
import proofs.«112178_j2774548873773_1_alg».proof.Proof.IdealHost
import proofs.«112178_j2774548873773_1_alg».proof.Proof.Gen.ReferenceIdeal.Read

/-!
  The host operations of the kernel's program are the reference's own.

  Both programs slice the two rows of the edge list, wrap negative node indices, gather node features and
  coordinates at the edges' endpoints, sum the squared coordinate differences and join the pieces into the
  edge-input matrix; and both scatter-add the edge features over the edges' first endpoints onto zeros and join
  the sums to the node features.  The two texts spell the same operations over the same shapes and dimension
  records, so the terms are equal by unfolding those names; the arrays themselves stay variables.  Over the
  extended reals the widening of the edge features from the 16-bit to the 32-bit format is the identity.
-/

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.Read

variable {F : FTy → Type} [FloatOps F]

/-- The edges' first endpoints are the reference's. -/
theorem rowK_eq_ref (x2 : (⟨S2x600000, .i32⟩ : BufTy).Contents (Elt F)) : rowK (F := F) x2 = val_main_v1 (F := F) x2 := rfl

/-- The edge-input matrix is the reference's. -/
theorem einK_eq_ref (x0 : (⟨S50000x128, .f32⟩ : BufTy).Contents (Elt F)) (x1 : (⟨S50000x3, .f32⟩ : BufTy).Contents (Elt F))
    (x2 : (⟨S2x600000, .i32⟩ : BufTy).Contents (Elt F)) (x3 : (⟨S600000x8, .f32⟩ : BufTy).Contents (Elt F)) :
    einK (F := F) x0 x1 x2 x3 = val_main_v36 (F := F) x0 x1 x2 x3 := rfl

/-- The node-input matrix built from edge features `e` that are the reference's is the reference's: the widening is
    the identity over the extended reals, and the scatter-add and the join are the reference's own operations. -/
theorem nin_eq_ref (x0 : (⟨S50000x128, .f32⟩ : BufTy).Contents (Elt Ideal)) (x1 : (⟨S50000x3, .f32⟩ : BufTy).Contents (Elt Ideal))
    (x2 : (⟨S2x600000, .i32⟩ : BufTy).Contents (Elt Ideal)) (x3 : (⟨S600000x8, .f32⟩ : BufTy).Contents (Elt Ideal))
    (x4 : (⟨S265x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (e : (⟨S600000x128, .bf16⟩ : BufTy).Contents (Elt Ideal))
    (he : (e : S600000x128.Idx → EReal) = val_main_v46 (F := Ideal) x0 x1 x2 x3 x4 x5 x6 x7) :
    concatenate S50000x256 1 [⟨S50000x128, x0⟩, ⟨S50000x128, Host.scatterAdd scatter_S50000x128_S600000x1_S600000x128_1_0_0_1
        (broadcastInDim S50000x128 ![] bcast_S_S50000x128 (constant (F := Ideal) S_ .f32 0x00000000#32))
        (broadcastInDim S600000x1 ![0] bcast_S600000_S600000x1_0 (rowK x2)) (extf .f32 e bitsLt_bf16_f32)⟩]
      concatenates_S50000x128_S50000x128_S50000x256_d1
      = val_main_v50 (F := Ideal) x0 x1 x2 x3 x4 x5 x6 x7 := by
  have hx : (extf .f32 e bitsLt_bf16_f32 : FVec Ideal S600000x128 .f32) = val_main_v46 (F := Ideal) x0 x1 x2 x3 x4 x5 x6 x7 := he
  rw [hx]
  rfl

end Cert.KernelIdeal.Hand

end
-- ==== Proof.RefNets.lean ====
import proofs.«112178_j2774548873773_1_alg».proof.Proof.Gen.ReferenceIdeal.Read
import proofs.«112178_j2774548873773_1_alg».proof.Proof.Spec
import Idealize.ShloMosaic.Lib.ValueIdx
import Idealize.ShloMosaic.PureOps.Ideal.Laws

/-!
  The reference program's two networks are the specification's networks.

  The edge stage of the reference takes the joined edge matrix through a product with the first weights, adds the
  first bias along rows, clamps at zero, takes the result through a product with the second weights, adds the second
  bias and clamps at zero again: entry by entry this is the edge network of the specification on the joined matrix.
  The node stage does the same on the joined node matrix without the last clamp: it is the node network.
-/

noncomputable section

namespace Cert.ReferenceIdeal.RefValue

open Cert.ReferenceIdeal Cert.ReferenceIdeal.Read Idealize.ShloMosaic Idealize.ShloMosaic.ValueIdx

/-- The edge stage of the reference is the edge network on the joined edge matrix. -/
theorem edge_stage (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S600000x8, .f32⟩ : BufTy).Contents (Elt Ideal)) (x4 : (⟨S265x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v46 (F := Ideal) x0 x1 x2 x3 x4 x5 x6 x7 = Cert.Spec.edgeNet (val_main_v36 (F := Ideal) x0 x1 x2 x3) x4 x5 x6 x7 := by
  funext i
  rw [val_main_v46_apply, val_main_v45_apply, val_main_v42_apply, val_main_v44_apply, val_main_v43_apply,
    val_main_call1_v0_apply, val_main_call1_cst_apply]
  simp only [val_main_v41_apply, val_main_v40_apply, val_main_v37_apply, val_main_v39_apply, val_main_v38_apply,
    val_main_call0_v0_apply, val_main_call0_cst_apply]
  generalize val_main_v36 (F := Ideal) x0 x1 x2 x3 = y
  -- the indices the stages read at, as coordinates
  have e1 : ∀ (k : Fin 128) (j : Fin 265), lidx_main_v37 (lidx_main_v42 i k) j = ix2 (i 0) j := fun k j =>
    funext fun a => Fin.ext (by match a with | ⟨0, _⟩ => rfl | ⟨1, _⟩ => rfl)
  have e2 : ∀ (k : Fin 128) (j : Fin 265), ridx_main_v37 (lidx_main_v42 i k) j = ix2 j k := fun k j =>
    funext fun a => Fin.ext (by match a with | ⟨0, _⟩ => rfl | ⟨1, _⟩ => rfl)
  have e3 : ∀ k : Fin 128, idx_main_v38 (idx_main_v39 (lidx_main_v42 i k)) = ix1 k := fun k =>
    funext fun a => Fin.ext (by match a with | ⟨0, _⟩ => rfl)
  have e4 : ∀ k : Fin 128, ridx_main_v42 i k = ix2 k (i 1) := fun k =>
    funext fun a => Fin.ext (by match a with | ⟨0, _⟩ => rfl | ⟨1, _⟩ => rfl)
  have e5 : idx_main_v43 (idx_main_v44 i) = ix1 (i 1) :=
    funext fun a => Fin.ext (by match a with | ⟨0, _⟩ => rfl)
  unfold Cert.Spec.edgeNet Cert.Spec.lin2 Cert.Spec.hid
  simp only [e1, e2, e3, e4, e5, Ideal.addf_def, Ideal.maximumf_def, Ideal.ofBits_def]
  rfl

/-- The node stage of the reference is the node network on the joined node matrix. -/
theorem node_stage (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S600000x8, .f32⟩ : BufTy).Contents (Elt Ideal)) (x4 : (⟨S265x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v59 (F := Ideal) x0 x1 x2 x3 x4 x5 x6 x7 x8 x9 x10 x11 = Cert.Spec.nodeNet (val_main_v50 (F := Ideal) x0 x1 x2 x3 x4 x5 x6 x7) x8 x9 x10 x11 := by
  funext i
  rw [val_main_v59_apply, val_main_v56_apply, val_main_v58_apply, val_main_v57_apply]
  simp only [val_main_v55_apply, val_main_v54_apply, val_main_v51_apply, val_main_v53_apply, val_main_v52_apply,
    val_main_call2_v0_apply, val_main_call2_cst_apply]
  generalize val_main_v50 (F := Ideal) x0 x1 x2 x3 x4 x5 x6 x7 = y
  -- the indices the stages read at, as coordinates
  have e1 : ∀ (k : Fin 128) (j : Fin 256), lidx_main_v51 (lidx_main_v56 i k) j = ix2 (i 0) j := fun k j =>
    funext fun a => Fin.ext (by match a with | ⟨0, _⟩ => rfl | ⟨1, _⟩ => rfl)
  have e2 : ∀ (k : Fin 128) (j : Fin 256), ridx_main_v51 (lidx_main_v56 i k) j = ix2 j k := fun k j =>
    funext fun a => Fin.ext (by match a with | ⟨0, _⟩ => rfl | ⟨1, _⟩ => rfl)
  have e3 : ∀ k : Fin 128, idx_main_v52 (idx_main_v53 (lidx_main_v56 i k)) = ix1 k := fun k =>
    funext fun a => Fin.ext (by match a with | ⟨0, _⟩ => rfl)
  have e4 : ∀ k : Fin 128, ridx_main_v56 i k = ix2 k (i 1) := fun k =>
    funext fun a => Fin.ext (by match a with | ⟨0, _⟩ => rfl | ⟨1, _⟩ => rfl)
  have e5 : idx_main_v57 (idx_main_v58 i) = ix1 (i 1) :=
    funext fun a => Fin.ext (by match a with | ⟨0, _⟩ => rfl)
  unfold Cert.Spec.nodeNet Cert.Spec.lin2 Cert.Spec.hid
  simp only [e1, e2, e3, e4, e5, Ideal.addf_def, Ideal.maximumf_def, Ideal.ofBits_def]
  rfl

end Cert.ReferenceIdeal.RefValue

end
-- ==== Proof.IdealResult.lean ====
import proofs.«112178_j2774548873773_1_alg».proof.Proof.IdealRun
import proofs.«112178_j2774548873773_1_alg».proof.Proof.IdealPayload
import proofs.«112178_j2774548873773_1_alg».proof.Proof.IdealValue0
import proofs.«112178_j2774548873773_1_alg».proof.Proof.IdealValue1
import proofs.«112178_j2774548873773_1_alg».proof.Proof.IdealHost
import proofs.«112178_j2774548873773_1_alg».proof.Proof.IdealHostRef
import proofs.«112178_j2774548873773_1_alg».proof.Proof.RefNets

/-!
  The idealized program's result, over the extended reals, is the reference's function of the arguments.

  The first region leaves the edge network of the edge-input matrix the host operations before it compute; those
  operations are the reference's own, so that array is the reference's edge-feature stage.  The host operations
  between the regions (widen, which is the identity here, scatter-add over the first row of the index array onto
  zeros, and join with the node features) are again the reference's own, so the second region is entered with the
  reference's node-input stage in its first window; it leaves the node network of it, which is the reference's
  result stage.
-/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The reference's edge-feature stage at this program's arguments. -/
abbrev refEdge (c : Dev nD) :=
  Cert.ReferenceIdeal.Read.val_main_v46 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's result stage at this program's arguments. -/
abbrev refOut (c : Dev nD) :=
  Cert.ReferenceIdeal.Read.val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- What the first region leaves in the edge-feature array is the reference's edge-feature stage. -/
theorem edge_value (c : Dev nD) : (dat0 (B1 m) c).arrAt 5 cfg0.N = refEdge m c := by
  refine (final0 (B1 m) Cert.KernelIdeal.Pay.pay0_apply c).trans ?_
  have h36 : B1 m c main_v36 = Cert.ReferenceIdeal.Read.val_main_v36 (F := Ideal) (m ((c : Thread nD τ).loc main_arg0)) (m ((c : Thread nD τ).loc main_arg1))
      (m ((c : Thread nD τ).loc main_arg2)) (m ((c : Thread nD τ).loc main_arg3)) := (V1_v36 m c).trans (einK_eq_ref _ _ _ _)
  have h4 : B1 m c main_arg4 = m ((c : Thread nD τ).loc main_arg4) := V1_of m c main_arg4 (by decide)
  have h5 : B1 m c main_arg5 = m ((c : Thread nD τ).loc main_arg5) := V1_of m c main_arg5 (by decide)
  have h6 : B1 m c main_arg6 = m ((c : Thread nD τ).loc main_arg6) := V1_of m c main_arg6 (by decide)
  have h7 : B1 m c main_arg7 = m ((c : Thread nD τ).loc main_arg7) := V1_of m c main_arg7 (by decide)
  rw [h36, h4, h5, h6, h7]
  exact (Cert.ReferenceIdeal.RefValue.edge_stage _ _ _ _ _ _ _ _).symm

/-- What the second region leaves in the result array is the reference's result stage. -/
theorem result_value (c : Dev nD) : (dat1 (E3 m) c).arrAt 5 cfg1.N = refOut m c := by
  refine (final1 (E3 m) Cert.KernelIdeal.Pay.pay1_apply c).trans ?_
  have he : outsA m 2 main_v37 c = refEdge m c := (X2_arr m c 5).trans (edge_value m c)
  have h42 : E3 m c main_v42 = Cert.ReferenceIdeal.Read.val_main_v50 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
    (V3_v42 m (outsA m) c).trans (nin_eq_ref _ _ _ _ _ _ _ _ _ he)
  have h8 : E3 m c main_arg8 = m ((c : Thread nD τ).loc main_arg8) :=
    (V3_of m (outsA m) c main_arg8 (by decide)).trans ((V2_of m (outsA m) c main_arg8 (by decide)).trans (V1_of m c main_arg8 (by decide)))
  have h9 : E3 m c main_arg9 = m ((c : Thread nD τ).loc main_arg9) :=
    (V3_of m (outsA m) c main_arg9 (by decide)).trans ((V2_of m (outsA m) c main_arg9 (by decide)).trans (V1_of m c main_arg9 (by decide)))
  have h10 : E3 m c main_arg10 = m ((c : Thread nD τ).loc main_arg10) :=
    (V3_of m (outsA m) c main_arg10 (by decide)).trans ((V2_of m (outsA m) c main_arg10 (by decide)).trans (V1_of m c main_arg10 (by decide)))
  have h11 : E3 m c main_arg11 = m ((c : Thread nD τ).loc main_arg11) :=
    (V3_of m (outsA m) c main_arg11 (by decide)).trans ((V2_of m (outsA m) c main_arg11 (by decide)).trans (V1_of m c main_arg11 (by decide)))
  rw [h42, h8, h9, h10, h11]
  exact (Cert.ReferenceIdeal.RefValue.node_stage _ _ _ _ _ _ _ _ _ _ _ _).symm

/-- The idealized program's run with its result named: it ends at the reference's result stage of the arguments,
    and no argument array is changed. -/
theorem kernel_run : θ_run defs (onTc (τ := τ) (main (F := Ideal))) ⟨m, fun _ => 0, ρ⟩ (fun r => ∀ c : Dev nD,
      r.2.mem ((c.tc : Thread nD τ).loc main_v43) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c _ (mem_uc main_v43 (by decide))).trans (V4_out m c)).trans (result_value m c),
     (h c _ (mem_uc main_arg0 (by decide))).trans (V4_main_arg0 m (outs m) c),
     (h c _ (mem_uc main_arg1 (by decide))).trans (V4_main_arg1 m (outs m) c),
     (h c _ (mem_uc main_arg2 (by decide))).trans (V4_main_arg2 m (outs m) c),
     (h c _ (mem_uc main_arg3 (by decide))).trans (V4_main_arg3 m (outs m) c),
     (h c _ (mem_uc main_arg4 (by decide))).trans (V4_main_arg4 m (outs m) c),
     (h c _ (mem_uc main_arg5 (by decide))).trans (V4_main_arg5 m (outs m) c),
     (h c _ (mem_uc main_arg6 (by decide))).trans (V4_main_arg6 m (outs m) c),
     (h c _ (mem_uc main_arg7 (by decide))).trans (V4_main_arg7 m (outs m) c),
     (h c _ (mem_uc main_arg8 (by decide))).trans (V4_main_arg8 m (outs m) c),
     (h c _ (mem_uc main_arg9 (by decide))).trans (V4_main_arg9 m (outs m) c),
     (h c _ (mem_uc main_arg10 (by decide))).trans (V4_main_arg10 m (outs m) c),
     (h c _ (mem_uc main_arg11 (by decide))).trans (V4_main_arg11 m (outs m) c)⟩) (run_all m ρ)

end Cert.KernelIdeal.Hand

end
-- ==== Proof.lean ====
import proofs.«112178_j2774548873773_1_alg».proof.Defs
import proofs.«112178_j2774548873773_1_alg».proof.Proof.Gen.Kernel
import proofs.«112178_j2774548873773_1_alg».proof.Proof.Gen.KernelIdeal
import proofs.«112178_j2774548873773_1_alg».proof.Proof.Gen.ReferenceIdeal
import proofs.«112178_j2774548873773_1_alg».proof.Proof.Gen.Pre_finite_inputs
import proofs.«112178_j2774548873773_1_alg».proof.Proof.Gen.ReferenceIdeal.Run
import proofs.«112178_j2774548873773_1_alg».proof.Proof.Gen.ReferenceIdeal.Read
import proofs.«112178_j2774548873773_1_alg».proof.Proof.BitsRun
import proofs.«112178_j2774548873773_1_alg».proof.Proof.IdealRun
import proofs.«112178_j2774548873773_1_alg».proof.Proof.IdealResult
import Idealize.ShloMosaic.Adequacy
import Idealize.ShloMosaic.Init

/-!
  A message-passing layer on a graph of 50000 nodes and 600000 edges: per edge, the two end nodes' features, the
  squared distance of their coordinates and the edge's attributes go through a two-layer network clamped at zero; the
  results are summed per source node; per node, the features joined with that sum go through a second two-layer
  network.  The kernel's program computes the two networks in two kernel regions, block of rows by block of rows, with
  the gathers, the per-node sum and the joins as host operations around them; the reference computes everything as
  host operations.

  Over the extended reals a change of float format is the identity and a matrix product is the exact sum over the
  contraction index, in the kernel's matrix unit and on the host alike.  Both networks work row by row, so the blocks of
  rows the regions write back are the blocks of the networks' whole results, and the host operations around the
  regions are the reference's own: the two programs compute one function of the arguments, entry by entry.

  The frames: each of the kernel's programs (at machine words and at extended reals) runs as host operations, a
  region, host operations, a region, each region's body a straight-line program on whole staging buffers; the
  reference is a straight-line host program.  No rewrite was applied in idealizing the kernel's program.
-/

noncomputable section

namespace Cert.Proof

open Idealize.ShloMosaic Idealize.SL.Sem

theorem frame_bits : Cert.frame_Kernel := fun m ρ _ => Cert.Kernel.Hand.frame m ρ

theorem frame_ideal : Cert.frame_KernelIdeal := fun m ρ _ => Cert.KernelIdeal.Hand.frame m ρ

theorem frame_ref : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the reference's result stage of those
    arguments in their result arrays. -/
theorem algebraic : Cert.algebraic_KernelIdeal_ReferenceIdeal := by
  intro m ρ m' ρ' _ hagree
  refine ⟨fun c => Cert.KernelIdeal.Hand.refOut m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v59_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_bits, frame_ideal, frame_ref, preserves, algebraic⟩

end Cert.Proof

end
